-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S512x512 : Shape := ⟨2, ![512, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512x512 .f32) (main_arg6 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  main_v33

def fn {F : FTy → Type} [FloatOps F] (main_arg0 : FVec F S4096x1024 .f32) (main_arg1 : FVec F S512x512 .f32) (main_arg2 : FVec F S512x512 .f32) (main_arg3 : FVec F S512x512 .f32) (main_arg4 : FVec F S512x512 .f32) (main_arg5 : FVec F S512x512 .f32) (main_arg6 : FVec F S512x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S4096x1024 : Shape := ⟨2, ![4096, 1024]⟩
abbrev S512x512 : Shape := ⟨2, ![512, 512]⟩
abbrev S512x1024 : Shape := ⟨2, ![512, 1024]⟩

abbrev nBuf : Space → Nat
  | .hbm => 10
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v35 : BitVec 1 := Scalar.cmpi .eq arg0 c7_i32
  let v36 : BitVec 32 := Scalar.extui v35
  let c0_i32_24 : BitVec 32 := 0#32
  let v37 : BitVec 1 := Scalar.cmpi .ne v36 c0_i32_24
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x512_0_0 : ∀ a, (![0, 0] : Fin 2 → Nat) a + S512x512.size a ≤ S512x1024.size a
  bitsLt_bf16_f32 : FTy.bits .bf16 < FTy.bits .f32
  inb_S512x1024_S512x512_0_512 : ∀ a, (![0, 512] : Fin 2 → Nat) a + S512x512.size a ≤ S512x1024.size a
  dot_S512x512_S512x512_S512x512_1_1_0_0_n_n_wf : DotDims.WF S512x512 S512x512 S512x512 [1] [1] [0] [0] [] []
  dot_S512x512_S512x512_S512x512_0_0_1_1_n_n_wf : DotDims.WF S512x512 S512x512 S512x512 [0] [0] [1] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S4096x1024.size a
  hwx1_5 : ∀ i : grid1.Coords, EltTy.bits .f32 = 32 ∨ (Rect.block (s := S4096x1024) S512x1024.size (cc1_transform_5 i) (hinb1_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S512x512.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S512x512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S512x512 : Shape := ⟨2, ![512, 512]⟩
abbrev S1024x4096 : Shape := ⟨2, ![1024, 4096]⟩
abbrev S512x4096 : Shape := ⟨2, ![512, 4096]⟩
abbrev S4096x4096 : Shape := ⟨2, ![4096, 4096]⟩
abbrev S4096x512 : Shape := ⟨2, ![4096, 512]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S1024x4096, .f32⟩
  | .hbm, ⟨8, _⟩ => ⟨S512x4096, .f32⟩
  | .hbm, ⟨9, _⟩ => ⟨S512x4096, .f32⟩
  | .hbm, ⟨10, _⟩ => ⟨S512x4096, .f32⟩
  | .hbm, ⟨11, _⟩ => ⟨S512x4096, .f32⟩
  | .hbm, ⟨12, _⟩ => ⟨S512x4096, .f32⟩
  | .hbm, ⟨13, _⟩ => ⟨S4096x4096, .f32⟩
  | .hbm, ⟨14, _⟩ => ⟨S4096x512, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S4096x4096, .f32⟩
  | .hbm, ⟨19, _⟩ => ⟨S4096x512, .f32⟩
  | .hbm, ⟨20, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  transposes_S4096x1024_S1024x4096_1_0 : S4096x1024.Transposes [1, 0] S1024x4096
  slices_S1024x4096_S512x4096_0_0 : S1024x4096.Slices ![0, 0] S512x4096
  slices_S1024x4096_S512x4096_512_0 : S1024x4096.Slices ![512, 0] S512x4096
  concatenates_S4096x512_S4096x512_S4096x1024_d1 : Shape.Concatenates [S4096x512, S4096x512] S4096x1024 1
  dot_S512x512_S512x4096_S512x4096_1_0_0_1_n_n_wf : DotDims.WF S512x512 S512x4096 S512x4096 [1] [0] [0] [1] [] []
  dot_S512x4096_S512x4096_S4096x4096_0_0_1_1_n_n_wf : DotDims.WF S512x4096 S512x4096 S4096x4096 [0] [0] [1] [1] [] []
  dot_S4096x4096_S512x4096_S4096x512_1_1_0_0_n_n_wf : DotDims.WF S4096x4096 S512x4096 S4096x512 [1] [1] [0] [0] [] []

variable [Facts₀]

def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S512x4096_S512x4096_S4096x4096_0_0_1_1_n_n : DotDims S512x4096 S512x4096 S4096x4096 where
  lhsContracting := [0]
  rhsContracting := [0]
  lhsNonContracting := [1]
  rhsNonContracting := [1]
  lhsBatch := []
  rhsBatch := []
  wf := dot_S512x4096_S512x4096_S4096x4096_0_0_1_1_n_n_wf
def dot_S4096x4096_S512x4096_S4096x512_1_1_0_0_n_n : DotDims S4096x4096 S512x4096 S4096x512 where
  lhsContracting := [1]
  rhsContracting := [1]
  lhsNonContracting := [0]
  rhsNonContracting := [0]
  lhsBatch := []
  rhsBatch := []
  wf := dot_S4096x4096_S512x4096_S4096x512_1_1_0_0_n_n_wf

class Facts : Prop extends Facts₀ where

variable [Facts]
-- ==== Proof.K.Reg0S.lean ====
/-
  The first call (the key and value projections of one tile of 512 rows and the accumulation of their product
  into two 512 x 512 scratch matrices, one per head) at a grid point, over the contents V the call finds in the
  unscoped buffers: each window's block, the body's two branch conditions decided over the grid (the reset at
  the first point, the write of both outputs at the last), where the two output windows are idle, the staging
  and scratch memrefs, and the invariant's scoped rest with the two scratch matrices named.
-/
import proofs.«133017_j15470472200192_1_alg».proof.Proof.Gen.Kernel.Launch
import proofs.«133017_j15470472200192_1_alg».proof.Proof.Gen.Kernel.Skeleton
import proofs.«133017_j15470472200192_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0 holds its block at every point, fetched there or not: unfetched, its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of call 0 holds its block at every point, fetched there or not: unfetched, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of call 0 holds its block at every point, fetched there or not: unfetched, its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 of call 0 holds its block at every point, fetched there or not: unfetched, its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 of call 0 holds its block at every point, fetched there or not: unfetched, its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Regions

/-- The reset's condition: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)
/-- The output write's condition: the grid coordinate is seven. -/
abbrev cond0_1 (i : grid0.Coords) : Prop := k0_cond2 i = 1#1
/-- It holds at the last point only. -/
theorem hcond0_1 : ∀ t : Fin cfg0.N, cond0_1 (grid0.coords t) ↔ t.val % 8 = 7 :=
  (by decide +kernel : ∀ t : Fin grid0.N, cond0_1 (grid0.coords t) ↔ t.val % 8 = 7)

/-- The five input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the two output windows are idle and not written back; at the last point they are live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-- One staging buffer of each output window, through which its contents are stated. -/
abbrev VO0_5 : View sig .tc .vmem S512x512 .f32 := (Memref.whole cc0_stg5_0 : Memref sig .tc .vmem S512x512 .f32).view
abbrev VO0_6 : View sig .tc .vmem S512x512 .f32 := (Memref.whole cc0_stg6_0 : Memref sig .tc .vmem S512x512 .f32).view
/-- Each window's current staging memref at point t, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
/-- The two scratch matrices: whole scoped buffers of the kernel's own, and the views their contents are stated through. -/
abbrev scM0_0 : Memref sig .tc .vmem S512x512 .f32 := Memref.whole cc0_scratch0
abbrev scM0_1 : Memref sig .tc .vmem S512x512 .f32 := Memref.whole cc0_scratch1
abbrev VS0_0 : View sig .tc .vmem S512x512 .f32 := scM0_0.view
abbrev VS0_1 : View sig .tc .vmem S512x512 .f32 := scM0_1.view

/-- The core's scoped buffers that are neither a staging buffer of this call nor one of its two scratch matrices
    (they are the second call's staging buffers), each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the two scratch matrices as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

end Cert.Kernel.Fr

end
-- ==== Proof.K.Run0A.lean ====
/-
  The body of the first call run once in the case of the first point: the reset taken, the output write not taken. What the run leaves in each buffer it
  stores into is found by the run itself, as the list of the pieces written (the latest first); the statement
  keeps the inputs as they were, hands the two idle output buffers back untouched.
-/
import proofs.«133017_j15470472200192_1_alg».proof.Proof.K.Reg0S

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in the two output buffers (L5, L6) and in the two scratch matrices (LS0,
    LS1), with the proof that on whole memrefs, the five inputs at their contents, the scratch at anything, the
    body runs to the continuation holding the inputs as they were and each stored buffer with its pieces written. -/
noncomputable def kernelRun0_A (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) :
    Σ' (L5 : List (View.Piece (Elt F) S512x512 .f32)) (L6 : List (View.Piece (Elt F) S512x512 .f32)) (LS0 : List (View.Piece (Elt F) S512x512 .f32)), { LS1 : List (View.Piece (Elt F) S512x512 .f32) //
      ∀ (xi5 xi6 : Vec F S512x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kv_kernel i arg1 harg1 arg2 harg2 arg3 harg3 arg4 harg4 arg5 harg5 arg6 harg6 arg7 harg7 arg8 harg8 arg9 harg9) K } := by
  refine ⟨[], [], ?_, ?_, fun xi5 xi6 E K => ?run⟩
  case run =>
    simp only [cc0__kv_kernel_eq_skeleton]; unfold cc0__kv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Fr

end
-- ==== Proof.K.Run0B.lean ====
/-
  The body of the first call run once in the case of a middle point: neither the reset nor the output write taken. What the run leaves in each buffer it
  stores into is found by the run itself, as the list of the pieces written (the latest first); the statement
  keeps the inputs as they were, hands the two idle output buffers back untouched.
-/
import proofs.«133017_j15470472200192_1_alg».proof.Proof.K.Run0A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in the two output buffers (L5, L6) and in the two scratch matrices (LS0,
    LS1), with the proof that on whole memrefs, the five inputs at their contents, the scratch at what the point before left, the
    body runs to the continuation holding the inputs as they were and each stored buffer with its pieces written. -/
noncomputable def kernelRun0_B (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) :
    Σ' (L5 : List (View.Piece (Elt F) S512x512 .f32)) (L6 : List (View.Piece (Elt F) S512x512 .f32)) (LS0 : List (View.Piece (Elt F) S512x512 .f32)), { LS1 : List (View.Piece (Elt F) S512x512 .f32) //
      ∀ (xi5 xi6 : Vec F S512x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kv_kernel i arg1 harg1 arg2 harg2 arg3 harg3 arg4 harg4 arg5 harg5 arg6 harg6 arg7 harg7 arg8 harg8 arg9 harg9) K } := by
  refine ⟨[], [], ?_, ?_, fun xi5 xi6 E K => ?run⟩
  case run =>
    simp only [cc0__kv_kernel_eq_skeleton]; unfold cc0__kv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Fr

end
-- ==== Proof.K.Run0C.lean ====
/-
  The body of the first call run once in the case of the last point: the reset not taken, the output write taken. What the run leaves in each buffer it
  stores into is found by the run itself, as the list of the pieces written (the latest first); the statement
  keeps the inputs as they were.
-/
import proofs.«133017_j15470472200192_1_alg».proof.Proof.K.Run0B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in the two output buffers (L5, L6) and in the two scratch matrices (LS0,
    LS1), with the proof that on whole memrefs, the five inputs at their contents, the scratch at what the point before left, the outputs at anything, the
    body runs to the continuation holding the inputs as they were and each stored buffer with its pieces written. -/
noncomputable def kernelRun0_C (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) :
    Σ' (L5 : List (View.Piece (Elt F) S512x512 .f32)) (L6 : List (View.Piece (Elt F) S512x512 .f32)) (LS0 : List (View.Piece (Elt F) S512x512 .f32)), { LS1 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kv_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__kv_kernel_eq_skeleton]; unfold cc0__kv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

end Cert.Kernel.Fr

end
-- ==== Proof.K.Reg0.lean ====
/-
  The first call's frame half: what each of the body's three cases leaves in the two scratch matrices and the two
  output buffers, the accumulation point by point (each point's contents over what the point before left in the
  scratch), the region invariant that carries the two scratch matrices from one point to the next at those
  contents, the proof data of the pipeline, and the body obligation at every point.
-/
import proofs.«133017_j15470472200192_1_alg».proof.Proof.K.Run0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A: the pieces found for the two scratch matrices tile them. -/
theorem scover0_A_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) (y : S512x512.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.2.1 S512x512.size (by sl_kernel_rfl) y
theorem scover0_A_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) (y : S512x512.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.2.2.1 S512x512.size (by sl_kernel_rfl) y
/-- What case A leaves in the two scratch matrices: its pieces read back. -/
def sout0_A_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) : Vec F S512x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4).2.2.1)
def sout0_A_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) : Vec F S512x512 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3 x4).2.2.2.1)
/-- What case A leaves in the two output buffers (nothing is stored there in this case: a placeholder nothing consults, the windows being idle and not written back). -/
def out0_A_5 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) : Vec F S512x512 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1 x2 x3 x4).1)
def out0_A_6 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) : Vec F S512x512 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3 x4).2.1)

/-- Case B: the pieces found for the two scratch matrices tile them. -/
theorem scover0_B_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) (y : S512x512.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).2.2.1 S512x512.size (by sl_kernel_rfl) y
theorem scover0_B_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) (y : S512x512.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).2.2.2.1 S512x512.size (by sl_kernel_rfl) y
/-- What case B leaves in the two scratch matrices: its pieces read back. -/
def sout0_B_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) : Vec F S512x512 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 x4 xs0 xs1).2.2.1)
def sout0_B_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) : Vec F S512x512 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 x3 x4 xs0 xs1).2.2.2.1)
/-- What case B leaves in the two output buffers (nothing is stored there in this case: a placeholder nothing consults, the windows being idle and not written back). -/
def out0_B_5 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) : Vec F S512x512 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 x2 x3 x4 xs0 xs1).1)
def out0_B_6 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) : Vec F S512x512 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 x4 xs0 xs1).2.1)

/-- Case C: the pieces found for the two scratch matrices tile them. -/
theorem scover0_C_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) (y : S512x512.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.2.1 S512x512.size (by sl_kernel_rfl) y
theorem scover0_C_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) (y : S512x512.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.2.2.1 S512x512.size (by sl_kernel_rfl) y
/-- What case C leaves in the two scratch matrices: its pieces read back. -/
def sout0_C_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) : Vec F S512x512 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 xs0 xs1).2.2.1)
def sout0_C_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) : Vec F S512x512 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 x4 xs0 xs1).2.2.2.1)
/-- What case C leaves in the two output buffers. -/
def out0_C_5 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) : Vec F S512x512 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 x4 xs0 xs1).1)
def out0_C_6 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) : Vec F S512x512 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 xs0 xs1).2.1)
/-- At the last point the pieces found for the two output buffers tile them. -/
theorem cover0_C_5 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) (y : S512x512.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).1 S512x512.size (by sl_kernel_rfl) y
theorem cover0_C_6 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) (y : S512x512.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.1 S512x512.size (by sl_kernel_rfl) y

section Regions
variable (V : (c : Dev nD) → (b : Ref sig .tc) → Buf (Elt F) ((c : Thread nD τ).loc b))

/-- THE ACCUMULATION. What the two output buffers and the two scratch matrices hold after the body at position n
    (the outputs, then the scratch): the case the point is in, run at the point's memrefs and input blocks, over
    what the point before left in the scratch. -/
def outsAt0 (c : Dev nD) : (n : ℕ) → n < cfg0.N → Vec F S512x512 .f32 × Vec F S512x512 .f32 × Vec F S512x512 .f32 × Vec F S512x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 8 = 7 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2)

/-- The accumulation at the first point. -/
theorem outsAt0_A (c : Dev nD) (t : Fin cfg0.N) (h0 : t.val % 8 = 0) (h1 : ¬t.val % 8 = 7) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 8 := lt_of_lt_of_eq hn (show cfg0.N = 8 from N_0); (try dsimp only at h0); omega)

/-- The accumulation at a middle point: over what the point before left. -/
theorem outsAt0_B (c : Dev nD) (t : Fin cfg0.N) (h0 : ¬t.val % 8 = 0) (h1 : ¬t.val % 8 = 7) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- The accumulation at the last point: over what the point before left. -/
theorem outsAt0_C (c : Dev nD) (t : Fin cfg0.N) (h0 : ¬t.val % 8 = 0) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-- The region invariant before position n: before the first point the class invariant (every scratch at anything);
    afterwards the two scratch matrices at what the point before left in them, the rest of the scoped buffers at
    anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restS0 (F := F) c) ∗ (∃ r, prngReg c r)) := by
  cases n with
  | zero => exact absurd rfl hz
  | succ n => rfl

/-- The proof data of the first pipeline on core c: the arrays as the call finds them; after the body at point t
    each input's buffer at its block and the two outputs' at the accumulation's components; the invariant PhiS;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the point is in one of the three cases; the
    invariant hands the body the two scratch matrices at what the point before left (at anything at the first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  by_cases h0 : t.val % 8 = 0
  · have h1 : ¬t.val % 8 = 7 := by omega
    have hz : t.val = 0 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold sout0_A_0 sout0_A_1; (try dsimp only)
    rw [PhiS_castSucc V c t, PhiS_zero V c _ _ hz, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := by omega
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_5 out0_C_6 sout0_C_0 sout0_C_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold sout0_B_0 sout0_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the entry hands the region (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Regions

end Cert.Kernel.Fr

end
-- ==== Proof.K.Reg1.lean ====
/-
  The second call (the query projection and the product with the two accumulated matrices) at a grid point,
  over the contents V the call finds in the unscoped buffers: each window's block, what the body's two stores
  leave in the output block (the left half columns from head 1, the right half from head 2), the body's run,
  and the proof data of the pipeline with the body obligation at every point.
-/
import proofs.«133017_j15470472200192_1_alg».proof.Proof.Gen.Kernel.Launch
import proofs.«133017_j15470472200192_1_alg».proof.Proof.Gen.Kernel.Skeleton
import proofs.«133017_j15470472200192_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1 holds its block at every point, fetched there or not: unfetched, its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of call 1 holds its block at every point, fetched there or not: unfetched, its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of call 1 holds its block at every point, fetched there or not: unfetched, its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of call 1 holds its block at every point, fetched there or not: unfetched, its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of call 1 holds its block at every point, fetched there or not: unfetched, its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The left and the right half of a 512 x 1024 block, and a whole 512 x 512 block. -/
abbrev rL : Rect S512x1024 := Rect.unit (s := S512x1024) ![0, 0] S512x512.size inb_S512x1024_S512x512_0_0
abbrev rR : Rect S512x1024 := Rect.unit (s := S512x1024) ![0, 512] S512x512.size inb_S512x1024_S512x512_0_512
abbrev rW : Rect S512x512 := Rect.unit (s := S512x512) ![0, 0] S512x512.size inb_S512x512_S512x512_0_0

/-- The output block after the body, from the input blocks: the two stores as pieces, the later first. -/
def out1_5 (x0 : Vec F S512x1024 .f32) (x1 x2 x3 x4 : Vec F S512x512 .f32) : Vec F S512x1024 .f32 :=
  View.canon [⟨rR, k1_pay2 (View.ld x0 rR) (View.ld x2 rW) (View.ld x4 rW)⟩, ⟨rL, k1_pay1 (View.ld x0 rL) (View.ld x1 rW) (View.ld x3 rW)⟩]

/-- The two half-blocks tile the block, so they cover it. -/
theorem cover1_5 (p1 p0 : Vec F S512x512 .f32) (y : S512x1024.Idx) :
    ∃ pc ∈ ([⟨rR, p1⟩, ⟨rL, p0⟩] : List (View.Piece (Elt F) S512x1024 .f32)), y ∈ pc.1.set :=
  View.cover_of_tiled [⟨rR, p1⟩, ⟨rL, p0⟩] S512x512.size (by sl_kernel_rfl) y

set_option maxHeartbeats 1000000 in
/-- The body on whole staging memrefs, the inputs at their contents and the output at anything, runs to the
    continuation holding the inputs as they were and the output at out1_5 of the inputs. -/
theorem sound_kernel1 (c : Dev nD) (E : Set ℕ) (i : grid1.Coords) (arg1 : Memref sig .tc .vmem S512x1024 .f32) (harg1 : arg1.IsWhole)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x1024 .f32) (harg6 : arg6.IsWhole)
    (x0 : Vec F S512x1024 .f32) (x1 x2 x3 x4 : Vec F S512x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__qo_kernel i arg1 harg1 arg2 harg2 arg3 harg3 arg4 harg4 arg5 harg5 arg6 harg6) K := by
  simp only [cc1__qo_kernel_eq_skeleton]; unfold cc1__qo_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _ _)

/-- The proof data of the second pipeline on core c: the arrays as the call finds them; after the body at point t
    each input's buffer at its block and the output's at out1_5 of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.K.Main.lean ====
/-
  The whole program: the contents of the unscoped buffers at launch, after the first call (its two outputs at
  what the pipeline's write-backs leave) and after the second (its output likewise), the proof data of both
  pipelines each at its call's entry contents, the two calls as segments of @main, and the launch: every weakly
  fair execution of @main terminates with every unscoped buffer at the contents after the second call. From it,
  the frame (no call writes an argument) and, read at the result buffer, the value the second call leaves.
-/
import proofs.«133017_j15470472200192_1_alg».proof.Proof.K.Reg0
import proofs.«133017_j15470472200192_1_alg».proof.Proof.K.Reg1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => m ((c : Dev nD), b)
/-- The same read at the TensorCore's references (what the first call's proof data take). -/
abbrev Vr0 : (c : Dev nD) → (b : Ref sig .tc) → Buf (Elt F) ((c : Thread nD τ).loc b) := fun c b => W0 m c b
/-- After the first call: its arrays at what the pipeline leaves, every other buffer as before. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the second call: its arrays at what the pipeline leaves, every other buffer as before. -/
def W2 (c : Dev nD) : Valuation τ sig (Elt F) :=
  Pipeline.withArrays spec1 c (W1 m c) fun w => (dat1 (Vr1 m) c).arrAt w cfg1.N
theorem W2_arr (c : Dev nD) (w : Fin cfg1.W) :
    W2 m c (Proc.devRef .tc (Pipeline.arrRef spec1 w)) = (dat1 (Vr1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vr2 : (c : Dev nD) → (b : Ref sig .tc) → Buf (Elt F) ((c : Thread nD τ).loc b) := fun c b => W2 m c b
theorem hF1 (c : Dev nD) (w : Fin cfg1.W) : (dat1 (Vr1 m) c).arrAt w cfg1.N = Vr2 m c (Pipeline.arrRef spec1 w) :=
  (W2_arr m c w).symm
theorem hrest1 (c : Dev nD) : ∀ b, b ∉ Finset.univ.image (Pipeline.arrRef spec1) → Vr2 m c b = Vr1 m c b :=
  fun b hb => W2_of_ne m c b fun w e => hb (Finset.mem_image.mpr ⟨w, Finset.mem_univ _, e⟩)

/-! The arguments end as launched: a call reads an argument through an input window or bypasses it. -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (Vr1 m) c).arrAt_in 0 rfl _).trans (A_eq1 (Vr1 m) c 0))
    _ = W0 m c (Proc.devRef .tc main_arg0) := (W1_arr m c 0).trans (((dat0 (Vr0 m) c).arrAt_in 0 rfl _).trans (A_eq0 (Vr0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 1).trans (((dat1 (Vr1 m) c).arrAt_in 1 rfl _).trans (A_eq1 (Vr1 m) c 1))
    _ = W0 m c (Proc.devRef .tc main_arg1) := W1_of_ne m c main_arg1 (by decide)
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := (W2_arr m c 2).trans (((dat1 (Vr1 m) c).arrAt_in 2 rfl _).trans (A_eq1 (Vr1 m) c 2))
    _ = W0 m c (Proc.devRef .tc main_arg2) := W1_of_ne m c main_arg2 (by decide)
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 1).trans (((dat0 (Vr0 m) c).arrAt_in 1 rfl _).trans (A_eq0 (Vr0 m) c 1))
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := (W1_arr m c 3).trans (((dat0 (Vr0 m) c).arrAt_in 3 rfl _).trans (A_eq0 (Vr0 m) c 3))
    _ = m ((c : Thread nD τ).loc main_arg4) := rfl
theorem W2_main_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := (W1_arr m c 2).trans (((dat0 (Vr0 m) c).arrAt_in 2 rfl _).trans (A_eq0 (Vr0 m) c 2))
    _ = m ((c : Thread nD τ).loc main_arg5) := rfl
theorem W2_main_arg6 (c : Dev nD) : W2 m c (Proc.devRef .tc main_arg6) = m ((c : Thread nD τ).loc main_arg6) :=
  calc W2 m c (Proc.devRef .tc main_arg6)
    _ = W1 m c (Proc.devRef .tc main_arg6) := W2_of_ne m c main_arg6 (by decide)
    _ = W0 m c (Proc.devRef .tc main_arg6) := (W1_arr m c 4).trans (((dat0 (Vr0 m) c).arrAt_in 4 rfl _).trans (A_eq0 (Vr0 m) c 4))
    _ = m ((c : Thread nD τ).loc main_arg6) := rfl

/-- The result buffer ends at what the second call's write-backs leave. -/
theorem W2_main_v1 (c : Dev nD) : W2 m c (Proc.devRef .tc main_v1) = (dat1 (Vr1 m) c).arrAt 5 cfg1.N := W2_arr m c 5

/-! The proof data family and the thread state -/

/-- No pipeline has a prefetched table. -/
abbrev adm : (p : Fin 2) → (pcfgs (F := F) p).Adm := fun p => (cfgs p).toPCfg_adm
/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the contents after the second call. -/
abbrev Tₙ (c : Dev nD) : sProp 𝕄 := iprop(StableHlo.held (c : Thread nD τ) (Pipeline.ucRefs τ sig) (W2 m c) ∗ ∃ r, prngReg c r)

set_option backward.isDefEq.respectTransparency.types false in
/-- Call 0 over the thread state: entered from every unscoped buffer at the contents before it, left at the contents
    after it. Its arrays are split out of the unscoped buffers at entry and put back at the exit contents; the
    generator register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine BIBase.Entails.trans (hout0 (Vr0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the contents before it, left at the contents
    after it. Its arrays are split out of the unscoped buffers at entry and put back at the exit contents; the
    generator register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's two segments in order. -/
abbrev segs : List (Pipeline.Seg (pcfgs (F := F)) adm (pdats m) () defs₀ 𝒱₀ L lv) :=
  [ .region (reg0 m), .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main on the TensorCores terminates, nothing
    faulting, and every final state has every unscoped buffer at the contents after the second call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c)⟩) (run_all m ρ)

/-- The run with the result buffer named: it ends at what the second call's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (Vr1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c)⟩) (run_all m ρ)

end Cert.Kernel.Fr

end
-- ==== Proof.KI.Reg0S.lean ====
/-
  The first call (the key and value projections of one tile of 512 rows and the accumulation of their product
  into two 512 x 512 scratch matrices, one per head) at a grid point, over the contents V the call finds in the
  unscoped buffers: each window's block, the body's two branch conditions decided over the grid (the reset at
  the first point, the write of both outputs at the last), where the two output windows are idle, the staging
  and scratch memrefs, and the invariant's scoped rest with the two scratch matrices named.
-/
import proofs.«133017_j15470472200192_1_alg».proof.Proof.Gen.KernelIdeal.Launch
import proofs.«133017_j15470472200192_1_alg».proof.Proof.Gen.KernelIdeal.Skeleton
import proofs.«133017_j15470472200192_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0 holds its block at every point, fetched there or not: unfetched, its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of call 0 holds its block at every point, fetched there or not: unfetched, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of call 0 holds its block at every point, fetched there or not: unfetched, its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 of call 0 holds its block at every point, fetched there or not: unfetched, its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 of call 0 holds its block at every point, fetched there or not: unfetched, its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Regions

/-- The reset's condition: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)
/-- The output write's condition: the grid coordinate is seven. -/
abbrev cond0_1 (i : grid0.Coords) : Prop := k0_cond2 i = 1#1
/-- It holds at the last point only. -/
theorem hcond0_1 : ∀ t : Fin cfg0.N, cond0_1 (grid0.coords t) ↔ t.val % 8 = 7 :=
  (by decide +kernel : ∀ t : Fin grid0.N, cond0_1 (grid0.coords t) ↔ t.val % 8 = 7)

/-- The five input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the two output windows are idle and not written back; at the last point they are live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-- One staging buffer of each output window, through which its contents are stated. -/
abbrev VO0_5 : View sig .tc .vmem S512x512 .f32 := (Memref.whole cc0_stg5_0 : Memref sig .tc .vmem S512x512 .f32).view
abbrev VO0_6 : View sig .tc .vmem S512x512 .f32 := (Memref.whole cc0_stg6_0 : Memref sig .tc .vmem S512x512 .f32).view
/-- Each window's current staging memref at point t, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
/-- The two scratch matrices: whole scoped buffers of the kernel's own, and the views their contents are stated through. -/
abbrev scM0_0 : Memref sig .tc .vmem S512x512 .f32 := Memref.whole cc0_scratch0
abbrev scM0_1 : Memref sig .tc .vmem S512x512 .f32 := Memref.whole cc0_scratch1
abbrev VS0_0 : View sig .tc .vmem S512x512 .f32 := scM0_0.view
abbrev VS0_1 : View sig .tc .vmem S512x512 .f32 := scM0_1.view

/-- The core's scoped buffers that are neither a staging buffer of this call nor one of its two scratch matrices
    (they are the second call's staging buffers), each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the two scratch matrices as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

end Cert.KernelIdeal.Fr

end
-- ==== Proof.KI.Run0A.lean ====
/-
  The body of the first call run once in the case of the first point: the reset taken, the output write not taken. What the run leaves in each buffer it
  stores into is found by the run itself, as the list of the pieces written (the latest first); the statement
  keeps the inputs as they were, hands the two idle output buffers back untouched.
-/
import proofs.«133017_j15470472200192_1_alg».proof.Proof.KI.Reg0S

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in the two output buffers (L5, L6) and in the two scratch matrices (LS0,
    LS1), with the proof that on whole memrefs, the five inputs at their contents, the scratch at anything, the
    body runs to the continuation holding the inputs as they were and each stored buffer with its pieces written. -/
noncomputable def kernelRun0_A (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) :
    Σ' (L5 : List (View.Piece (Elt F) S512x512 .f32)) (L6 : List (View.Piece (Elt F) S512x512 .f32)) (LS0 : List (View.Piece (Elt F) S512x512 .f32)), { LS1 : List (View.Piece (Elt F) S512x512 .f32) //
      ∀ (xi5 xi6 : Vec F S512x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kv_kernel i arg1 harg1 arg2 harg2 arg3 harg3 arg4 harg4 arg5 harg5 arg6 harg6 arg7 harg7 arg8 harg8 arg9 harg9) K } := by
  refine ⟨[], [], ?_, ?_, fun xi5 xi6 E K => ?run⟩
  case run =>
    simp only [cc0__kv_kernel_eq_skeleton]; unfold cc0__kv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Fr

end
-- ==== Proof.KI.Run0B.lean ====
/-
  The body of the first call run once in the case of a middle point: neither the reset nor the output write taken. What the run leaves in each buffer it
  stores into is found by the run itself, as the list of the pieces written (the latest first); the statement
  keeps the inputs as they were, hands the two idle output buffers back untouched.
-/
import proofs.«133017_j15470472200192_1_alg».proof.Proof.KI.Run0A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in the two output buffers (L5, L6) and in the two scratch matrices (LS0,
    LS1), with the proof that on whole memrefs, the five inputs at their contents, the scratch at what the point before left, the
    body runs to the continuation holding the inputs as they were and each stored buffer with its pieces written. -/
noncomputable def kernelRun0_B (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) :
    Σ' (L5 : List (View.Piece (Elt F) S512x512 .f32)) (L6 : List (View.Piece (Elt F) S512x512 .f32)) (LS0 : List (View.Piece (Elt F) S512x512 .f32)), { LS1 : List (View.Piece (Elt F) S512x512 .f32) //
      ∀ (xi5 xi6 : Vec F S512x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kv_kernel i arg1 harg1 arg2 harg2 arg3 harg3 arg4 harg4 arg5 harg5 arg6 harg6 arg7 harg7 arg8 harg8 arg9 harg9) K } := by
  refine ⟨[], [], ?_, ?_, fun xi5 xi6 E K => ?run⟩
  case run =>
    simp only [cc0__kv_kernel_eq_skeleton]; unfold cc0__kv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Fr

end
-- ==== Proof.KI.Run0C.lean ====
/-
  The body of the first call run once in the case of the last point: the reset not taken, the output write taken. What the run leaves in each buffer it
  stores into is found by the run itself, as the list of the pieces written (the latest first); the statement
  keeps the inputs as they were.
-/
import proofs.«133017_j15470472200192_1_alg».proof.Proof.KI.Run0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in the two output buffers (L5, L6) and in the two scratch matrices (LS0,
    LS1), with the proof that on whole memrefs, the five inputs at their contents, the scratch at what the point before left, the outputs at anything, the
    body runs to the continuation holding the inputs as they were and each stored buffer with its pieces written. -/
noncomputable def kernelRun0_C (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) :
    Σ' (L5 : List (View.Piece (Elt F) S512x512 .f32)) (L6 : List (View.Piece (Elt F) S512x512 .f32)) (LS0 : List (View.Piece (Elt F) S512x512 .f32)), { LS1 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kv_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__kv_kernel_eq_skeleton]; unfold cc0__kv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

end Cert.KernelIdeal.Fr

end
-- ==== Proof.KI.Reg0.lean ====
/-
  The first call's frame half: what each of the body's three cases leaves in the two scratch matrices and the two
  output buffers, the accumulation point by point (each point's contents over what the point before left in the
  scratch), the region invariant that carries the two scratch matrices from one point to the next at those
  contents, the proof data of the pipeline, and the body obligation at every point.
-/
import proofs.«133017_j15470472200192_1_alg».proof.Proof.KI.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A: the pieces found for the two scratch matrices tile them. -/
theorem scover0_A_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) (y : S512x512.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.2.1 S512x512.size (by sl_kernel_rfl) y
theorem scover0_A_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) (y : S512x512.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.2.2.1 S512x512.size (by sl_kernel_rfl) y
/-- What case A leaves in the two scratch matrices: its pieces read back. -/
def sout0_A_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) : Vec F S512x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4).2.2.1)
def sout0_A_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) : Vec F S512x512 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3 x4).2.2.2.1)
/-- What case A leaves in the two output buffers (nothing is stored there in this case: a placeholder nothing consults, the windows being idle and not written back). -/
def out0_A_5 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) : Vec F S512x512 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1 x2 x3 x4).1)
def out0_A_6 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) : Vec F S512x512 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3 x4).2.1)

/-- Case B: the pieces found for the two scratch matrices tile them. -/
theorem scover0_B_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) (y : S512x512.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).2.2.1 S512x512.size (by sl_kernel_rfl) y
theorem scover0_B_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) (y : S512x512.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).2.2.2.1 S512x512.size (by sl_kernel_rfl) y
/-- What case B leaves in the two scratch matrices: its pieces read back. -/
def sout0_B_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) : Vec F S512x512 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 x4 xs0 xs1).2.2.1)
def sout0_B_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) : Vec F S512x512 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 x3 x4 xs0 xs1).2.2.2.1)
/-- What case B leaves in the two output buffers (nothing is stored there in this case: a placeholder nothing consults, the windows being idle and not written back). -/
def out0_B_5 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) : Vec F S512x512 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 x2 x3 x4 xs0 xs1).1)
def out0_B_6 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) : Vec F S512x512 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 x4 xs0 xs1).2.1)

/-- Case C: the pieces found for the two scratch matrices tile them. -/
theorem scover0_C_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) (y : S512x512.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.2.1 S512x512.size (by sl_kernel_rfl) y
theorem scover0_C_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) (y : S512x512.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.2.2.1 S512x512.size (by sl_kernel_rfl) y
/-- What case C leaves in the two scratch matrices: its pieces read back. -/
def sout0_C_0 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) : Vec F S512x512 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 xs0 xs1).2.2.1)
def sout0_C_1 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) : Vec F S512x512 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 x4 xs0 xs1).2.2.2.1)
/-- What case C leaves in the two output buffers. -/
def out0_C_5 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) : Vec F S512x512 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 x4 xs0 xs1).1)
def out0_C_6 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) : Vec F S512x512 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 xs0 xs1).2.1)
/-- At the last point the pieces found for the two output buffers tile them. -/
theorem cover0_C_5 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) (y : S512x512.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).1 S512x512.size (by sl_kernel_rfl) y
theorem cover0_C_6 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) (y : S512x512.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.1 S512x512.size (by sl_kernel_rfl) y

section Regions
variable (V : (c : Dev nD) → (b : Ref sig .tc) → Buf (Elt F) ((c : Thread nD τ).loc b))

/-- THE ACCUMULATION. What the two output buffers and the two scratch matrices hold after the body at position n
    (the outputs, then the scratch): the case the point is in, run at the point's memrefs and input blocks, over
    what the point before left in the scratch. -/
def outsAt0 (c : Dev nD) : (n : ℕ) → n < cfg0.N → Vec F S512x512 .f32 × Vec F S512x512 .f32 × Vec F S512x512 .f32 × Vec F S512x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 8 = 7 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => (fun h => by have hN : n + 1 < 8 := lt_of_lt_of_eq hn (show cfg0.N = 8 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2)

/-- The accumulation at the first point. -/
theorem outsAt0_A (c : Dev nD) (t : Fin cfg0.N) (h0 : t.val % 8 = 0) (h1 : ¬t.val % 8 = 7) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 8 := lt_of_lt_of_eq hn (show cfg0.N = 8 from N_0); (try dsimp only at h0); omega)

/-- The accumulation at a middle point: over what the point before left. -/
theorem outsAt0_B (c : Dev nD) (t : Fin cfg0.N) (h0 : ¬t.val % 8 = 0) (h1 : ¬t.val % 8 = 7) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- The accumulation at the last point: over what the point before left. -/
theorem outsAt0_C (c : Dev nD) (t : Fin cfg0.N) (h0 : ¬t.val % 8 = 0) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-- The region invariant before position n: before the first point the class invariant (every scratch at anything);
    afterwards the two scratch matrices at what the point before left in them, the rest of the scoped buffers at
    anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restS0 (F := F) c) ∗ (∃ r, prngReg c r)) := by
  cases n with
  | zero => exact absurd rfl hz
  | succ n => rfl

/-- The proof data of the first pipeline on core c: the arrays as the call finds them; after the body at point t
    each input's buffer at its block and the two outputs' at the accumulation's components; the invariant PhiS;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the point is in one of the three cases; the
    invariant hands the body the two scratch matrices at what the point before left (at anything at the first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  by_cases h0 : t.val % 8 = 0
  · have h1 : ¬t.val % 8 = 7 := by omega
    have hz : t.val = 0 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold sout0_A_0 sout0_A_1; (try dsimp only)
    rw [PhiS_castSucc V c t, PhiS_zero V c _ _ hz, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := by omega
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_5 out0_C_6 sout0_C_0 sout0_C_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold sout0_B_0 sout0_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the entry hands the region (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Regions

end Cert.KernelIdeal.Fr

end
-- ==== Proof.KI.Reg1.lean ====
/-
  The second call (the query projection and the product with the two accumulated matrices) at a grid point,
  over the contents V the call finds in the unscoped buffers: each window's block, what the body's two stores
  leave in the output block (the left half columns from head 1, the right half from head 2), the body's run,
  and the proof data of the pipeline with the body obligation at every point.
-/
import proofs.«133017_j15470472200192_1_alg».proof.Proof.Gen.KernelIdeal.Launch
import proofs.«133017_j15470472200192_1_alg».proof.Proof.Gen.KernelIdeal.Skeleton
import proofs.«133017_j15470472200192_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1 holds its block at every point, fetched there or not: unfetched, its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of call 1 holds its block at every point, fetched there or not: unfetched, its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of call 1 holds its block at every point, fetched there or not: unfetched, its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of call 1 holds its block at every point, fetched there or not: unfetched, its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of call 1 holds its block at every point, fetched there or not: unfetched, its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The left and the right half of a 512 x 1024 block, and a whole 512 x 512 block. -/
abbrev rL : Rect S512x1024 := Rect.unit (s := S512x1024) ![0, 0] S512x512.size inb_S512x1024_S512x512_0_0
abbrev rR : Rect S512x1024 := Rect.unit (s := S512x1024) ![0, 512] S512x512.size inb_S512x1024_S512x512_0_512
abbrev rW : Rect S512x512 := Rect.unit (s := S512x512) ![0, 0] S512x512.size inb_S512x512_S512x512_0_0

/-- The output block after the body, from the input blocks: the two stores as pieces, the later first. -/
def out1_5 (x0 : Vec F S512x1024 .f32) (x1 x2 x3 x4 : Vec F S512x512 .f32) : Vec F S512x1024 .f32 :=
  View.canon [⟨rR, k1_pay2 (View.ld x0 rR) (View.ld x2 rW) (View.ld x4 rW)⟩, ⟨rL, k1_pay1 (View.ld x0 rL) (View.ld x1 rW) (View.ld x3 rW)⟩]

/-- The two half-blocks tile the block, so they cover it. -/
theorem cover1_5 (p1 p0 : Vec F S512x512 .f32) (y : S512x1024.Idx) :
    ∃ pc ∈ ([⟨rR, p1⟩, ⟨rL, p0⟩] : List (View.Piece (Elt F) S512x1024 .f32)), y ∈ pc.1.set :=
  View.cover_of_tiled [⟨rR, p1⟩, ⟨rL, p0⟩] S512x512.size (by sl_kernel_rfl) y

set_option maxHeartbeats 1000000 in
/-- The body on whole staging memrefs, the inputs at their contents and the output at anything, runs to the
    continuation holding the inputs as they were and the output at out1_5 of the inputs. -/
theorem sound_kernel1 (c : Dev nD) (E : Set ℕ) (i : grid1.Coords) (arg1 : Memref sig .tc .vmem S512x1024 .f32) (harg1 : arg1.IsWhole)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x1024 .f32) (harg6 : arg6.IsWhole)
    (x0 : Vec F S512x1024 .f32) (x1 x2 x3 x4 : Vec F S512x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__qo_kernel i arg1 harg1 arg2 harg2 arg3 harg3 arg4 harg4 arg5 harg5 arg6 harg6) K := by
  simp only [cc1__qo_kernel_eq_skeleton]; unfold cc1__qo_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _ _)

/-- The proof data of the second pipeline on core c: the arrays as the call finds them; after the body at point t
    each input's buffer at its block and the output's at out1_5 of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.KI.Main.lean ====
/-
  The whole program: the contents of the unscoped buffers at launch, after the first call (its two outputs at
  what the pipeline's write-backs leave) and after the second (its output likewise), the proof data of both
  pipelines each at its call's entry contents, the two calls as segments of @main, and the launch: every weakly
  fair execution of @main terminates with every unscoped buffer at the contents after the second call. From it,
  the frame (no call writes an argument) and, read at the result buffer, the value the second call leaves.
-/
import proofs.«133017_j15470472200192_1_alg».proof.Proof.KI.Reg0
import proofs.«133017_j15470472200192_1_alg».proof.Proof.KI.Reg1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => m ((c : Dev nD), b)
/-- The same read at the TensorCore's references (what the first call's proof data take). -/
abbrev Vr0 : (c : Dev nD) → (b : Ref sig .tc) → Buf (Elt F) ((c : Thread nD τ).loc b) := fun c b => W0 m c b
/-- After the first call: its arrays at what the pipeline leaves, every other buffer as before. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the second call: its arrays at what the pipeline leaves, every other buffer as before. -/
def W2 (c : Dev nD) : Valuation τ sig (Elt F) :=
  Pipeline.withArrays spec1 c (W1 m c) fun w => (dat1 (Vr1 m) c).arrAt w cfg1.N
theorem W2_arr (c : Dev nD) (w : Fin cfg1.W) :
    W2 m c (Proc.devRef .tc (Pipeline.arrRef spec1 w)) = (dat1 (Vr1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vr2 : (c : Dev nD) → (b : Ref sig .tc) → Buf (Elt F) ((c : Thread nD τ).loc b) := fun c b => W2 m c b
theorem hF1 (c : Dev nD) (w : Fin cfg1.W) : (dat1 (Vr1 m) c).arrAt w cfg1.N = Vr2 m c (Pipeline.arrRef spec1 w) :=
  (W2_arr m c w).symm
theorem hrest1 (c : Dev nD) : ∀ b, b ∉ Finset.univ.image (Pipeline.arrRef spec1) → Vr2 m c b = Vr1 m c b :=
  fun b hb => W2_of_ne m c b fun w e => hb (Finset.mem_image.mpr ⟨w, Finset.mem_univ _, e⟩)

/-! The arguments end as launched: a call reads an argument through an input window or bypasses it. -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (Vr1 m) c).arrAt_in 0 rfl _).trans (A_eq1 (Vr1 m) c 0))
    _ = W0 m c (Proc.devRef .tc main_arg0) := (W1_arr m c 0).trans (((dat0 (Vr0 m) c).arrAt_in 0 rfl _).trans (A_eq0 (Vr0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 1).trans (((dat1 (Vr1 m) c).arrAt_in 1 rfl _).trans (A_eq1 (Vr1 m) c 1))
    _ = W0 m c (Proc.devRef .tc main_arg1) := W1_of_ne m c main_arg1 (by decide)
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := (W2_arr m c 2).trans (((dat1 (Vr1 m) c).arrAt_in 2 rfl _).trans (A_eq1 (Vr1 m) c 2))
    _ = W0 m c (Proc.devRef .tc main_arg2) := W1_of_ne m c main_arg2 (by decide)
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 1).trans (((dat0 (Vr0 m) c).arrAt_in 1 rfl _).trans (A_eq0 (Vr0 m) c 1))
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := (W1_arr m c 3).trans (((dat0 (Vr0 m) c).arrAt_in 3 rfl _).trans (A_eq0 (Vr0 m) c 3))
    _ = m ((c : Thread nD τ).loc main_arg4) := rfl
theorem W2_main_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := (W1_arr m c 2).trans (((dat0 (Vr0 m) c).arrAt_in 2 rfl _).trans (A_eq0 (Vr0 m) c 2))
    _ = m ((c : Thread nD τ).loc main_arg5) := rfl
theorem W2_main_arg6 (c : Dev nD) : W2 m c (Proc.devRef .tc main_arg6) = m ((c : Thread nD τ).loc main_arg6) :=
  calc W2 m c (Proc.devRef .tc main_arg6)
    _ = W1 m c (Proc.devRef .tc main_arg6) := W2_of_ne m c main_arg6 (by decide)
    _ = W0 m c (Proc.devRef .tc main_arg6) := (W1_arr m c 4).trans (((dat0 (Vr0 m) c).arrAt_in 4 rfl _).trans (A_eq0 (Vr0 m) c 4))
    _ = m ((c : Thread nD τ).loc main_arg6) := rfl

/-- The result buffer ends at what the second call's write-backs leave. -/
theorem W2_main_v1 (c : Dev nD) : W2 m c (Proc.devRef .tc main_v1) = (dat1 (Vr1 m) c).arrAt 5 cfg1.N := W2_arr m c 5

/-! The proof data family and the thread state -/

/-- No pipeline has a prefetched table. -/
abbrev adm : (p : Fin 2) → (pcfgs (F := F) p).Adm := fun p => (cfgs p).toPCfg_adm
/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the contents after the second call. -/
abbrev Tₙ (c : Dev nD) : sProp 𝕄 := iprop(StableHlo.held (c : Thread nD τ) (Pipeline.ucRefs τ sig) (W2 m c) ∗ ∃ r, prngReg c r)

set_option backward.isDefEq.respectTransparency.types false in
/-- Call 0 over the thread state: entered from every unscoped buffer at the contents before it, left at the contents
    after it. Its arrays are split out of the unscoped buffers at entry and put back at the exit contents; the
    generator register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine BIBase.Entails.trans (hout0 (Vr0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the contents before it, left at the contents
    after it. Its arrays are split out of the unscoped buffers at entry and put back at the exit contents; the
    generator register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's two segments in order. -/
abbrev segs : List (Pipeline.Seg (pcfgs (F := F)) adm (pdats m) () defs₀ 𝒱₀ L lv) :=
  [ .region (reg0 m), .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main on the TensorCores terminates, nothing
    faulting, and every final state has every unscoped buffer at the contents after the second call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c)⟩) (run_all m ρ)

/-- The run with the result buffer named: it ends at what the second call's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (Vr1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c)⟩) (run_all m ρ)

end Cert.KernelIdeal.Fr

end
-- ==== Proof.KI.Val0P.lean ====
/-
  What the first call's three cases leave in the two scratch matrices and, at the last point, in the two output
  buffers, as the body's named payloads of the input blocks: the head-1 scratch ends at the update payload of
  the left half of the x block, the two head-1 weights and what the scratch held (zero after the reset at the
  first point); the head-2 scratch at the sum of what it held and the head-2 tile payload of the right half; the
  two output buffers, at the last point, at what the two scratch matrices then hold.
-/
import proofs.«133017_j15470472200192_1_alg».proof.Proof.KI.Reg0
import proofs.«133017_j15470472200192_1_alg».proof.Proof.KI.Reg1
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic

variable {F : FTy → Type} [FloatOps F]

/-- The offset pair (0, 0) is the constant-zero offset: the rectangle of full size at these offsets is the whole
    512 by 512 matrix, so a load through it reads the contents and a store through it leaves its payload. -/
private theorem zeroOffs_eq : (![0, 0] : Fin 2 → ℕ) = fun _ => 0 := by
  funext a; match a with | ⟨0, _⟩ => rfl | ⟨1, _⟩ => rfl

/-- First point, first scratch matrix: two pieces, the zero reset and over it the update, whose last argument is the
    reset read back, so the zero payload itself. -/
theorem sout0_A_0_eq (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) :
    sout0_A_0 c i arg1 harg1 arg2 harg2 arg3 harg3 arg4 harg4 arg5 harg5 arg6 harg6 arg7 harg7 arg8 harg8 arg9 harg9 hc0 hc1 x0 x1 x2 x3 x4 = k0_pay4 (View.ld x0 rL) x1 x2 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A; dsimp only; sl_unfold_words
  rw [View.canon_cons_unit_zero (S := S512x512) zeroOffs_eq, View.readCov_unit_zero (S := S512x512) _ zeroOffs_eq]
  simp only [View.readAt_eq_ld, harg1.read_unread, harg2.read_unread, harg3.read_unread, harg4.read_unread, harg5.read_unread, View.ld_unit_zero (S := S512x512) zeroOffs_eq]
/-- First point, second scratch matrix: the zero reset and over it the sum of the reset read back and the tile payload
    of the right half. -/
theorem sout0_A_1_eq (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 x2 x3 x4 : Vec F S512x512 .f32) :
    sout0_A_1 c i arg1 harg1 arg2 harg2 arg3 harg3 arg4 harg4 arg5 harg5 arg6 harg6 arg7 harg7 arg8 harg8 arg9 harg9 hc0 hc1 x0 x1 x2 x3 x4 = k0_pay1 (k0_pay3 (F := F)) (k0_pay5 (View.ld x0 rR) x3 x4) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A; dsimp only; sl_unfold_words
  rw [View.canon_cons_unit_zero (S := S512x512) zeroOffs_eq, View.readCov_unit_zero (S := S512x512) _ zeroOffs_eq]
  simp only [View.readAt_eq_ld, harg1.read_unread, harg2.read_unread, harg3.read_unread, harg4.read_unread, harg5.read_unread, View.ld_unit_zero (S := S512x512) zeroOffs_eq]
/-- A middle point, first scratch matrix: one piece, the update over what the scratch held on entry. -/
theorem sout0_B_0_eq (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) :
    sout0_B_0 c i arg1 harg1 arg2 harg2 arg3 harg3 arg4 harg4 arg5 harg5 arg6 harg6 arg7 harg7 arg8 harg8 arg9 harg9 hc0 hc1 x0 x1 x2 x3 x4 xs0 xs1 = k0_pay4 (View.ld x0 rL) x1 x2 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0 xs1)]
  unfold kernelRun0_B; dsimp only; sl_unfold_words
  rw [View.canon_unit_zero (S := S512x512) zeroOffs_eq]
  simp only [View.readAt_eq_ld, harg1.read_unread, harg2.read_unread, harg3.read_unread, harg4.read_unread, harg5.read_unread, harg8.read_unread, harg9.read_unread, View.ld_unit_zero (S := S512x512) zeroOffs_eq, View.readCov_unit_zero (S := S512x512) _ zeroOffs_eq]
/-- A middle point, second scratch matrix: one piece, what the scratch held on entry plus the tile payload of the
    right half. -/
theorem sout0_B_1_eq (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 x2 x3 x4 : Vec F S512x512 .f32) (xs0 xs1 : Vec F S512x512 .f32) :
    sout0_B_1 c i arg1 harg1 arg2 harg2 arg3 harg3 arg4 harg4 arg5 harg5 arg6 harg6 arg7 harg7 arg8 harg8 arg9 harg9 hc0 hc1 x0 x1 x2 x3 x4 xs0 xs1 = k0_pay1 xs1 (k0_pay5 (View.ld x0 rR) x3 x4) := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs0 xs1)]
  unfold kernelRun0_B; dsimp only; sl_unfold_words
  rw [View.canon_unit_zero (S := S512x512) zeroOffs_eq]
  simp only [View.readAt_eq_ld, harg1.read_unread, harg2.read_unread, harg3.read_unread, harg4.read_unread, harg5.read_unread, harg8.read_unread, harg9.read_unread, View.ld_unit_zero (S := S512x512) zeroOffs_eq, View.readCov_unit_zero (S := S512x512) _ zeroOffs_eq]
/-- The last point, first scratch matrix: as at a middle point. -/
theorem sout0_C_0_eq (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) :
    sout0_C_0 c i arg1 harg1 arg2 harg2 arg3 harg3 arg4 harg4 arg5 harg5 arg6 harg6 arg7 harg7 arg8 harg8 arg9 harg9 hc0 hc1 x0 x1 x2 x3 x4 xs0 xs1 = k0_pay4 (View.ld x0 rL) x1 x2 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0 xs1)]
  unfold kernelRun0_C; dsimp only; sl_unfold_words
  rw [View.canon_unit_zero (S := S512x512) zeroOffs_eq]
  simp only [View.readAt_eq_ld, harg1.read_unread, harg2.read_unread, harg3.read_unread, harg4.read_unread, harg5.read_unread, harg8.read_unread, harg9.read_unread, View.ld_unit_zero (S := S512x512) zeroOffs_eq, View.readCov_unit_zero (S := S512x512) _ zeroOffs_eq]
/-- The last point, second scratch matrix: as at a middle point (the two values handed out of the first part of the
    body are the components of a triple, projected first). -/
theorem sout0_C_1_eq (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) :
    sout0_C_1 c i arg1 harg1 arg2 harg2 arg3 harg3 arg4 harg4 arg5 harg5 arg6 harg6 arg7 harg7 arg8 harg8 arg9 harg9 hc0 hc1 x0 x1 x2 x3 x4 xs0 xs1 = k0_pay1 xs1 (k0_pay5 (View.ld x0 rR) x3 x4) := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs0 xs1)]
  unfold kernelRun0_C; dsimp only; sl_unfold_words
  dsimp only
  rw [View.canon_unit_zero (S := S512x512) zeroOffs_eq]
  simp only [View.readAt_eq_ld, harg1.read_unread, harg2.read_unread, harg3.read_unread, harg4.read_unread, harg5.read_unread, harg8.read_unread, harg9.read_unread, View.ld_unit_zero (S := S512x512) zeroOffs_eq, View.readCov_unit_zero (S := S512x512) _ zeroOffs_eq]
/-- The last point, first output buffer: one piece, the first scratch matrix read back after its update. -/
theorem out0_C_5_eq (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) :
    out0_C_5 c i arg1 harg1 arg2 harg2 arg3 harg3 arg4 harg4 arg5 harg5 arg6 harg6 arg7 harg7 arg8 harg8 arg9 harg9 hc0 hc1 x0 x1 x2 x3 x4 xs0 xs1 = k0_pay4 (View.ld x0 rL) x1 x2 xs0 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0 xs1)]
  unfold kernelRun0_C; dsimp only; sl_unfold_words
  rw [View.canon_unit_zero (S := S512x512) zeroOffs_eq]
  simp only [View.readAt_eq_ld, harg1.read_unread, harg2.read_unread, harg3.read_unread, harg4.read_unread, harg5.read_unread, harg8.read_unread, harg9.read_unread, View.ld_unit_zero (S := S512x512) zeroOffs_eq, View.readCov_unit_zero (S := S512x512) _ zeroOffs_eq]
/-- The last point, second output buffer: one piece, the second scratch matrix read back after its update. -/
theorem out0_C_6_eq (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 x2 x3 x4 : Vec F S512x512 .f32) (xs0 xs1 : Vec F S512x512 .f32) :
    out0_C_6 c i arg1 harg1 arg2 harg2 arg3 harg3 arg4 harg4 arg5 harg5 arg6 harg6 arg7 harg7 arg8 harg8 arg9 harg9 hc0 hc1 x0 x1 x2 x3 x4 xs0 xs1 = k0_pay1 xs1 (k0_pay5 (View.ld x0 rR) x3 x4) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 xs0 xs1)]
  unfold kernelRun0_C; dsimp only; sl_unfold_words
  dsimp only
  rw [View.canon_unit_zero (S := S512x512) zeroOffs_eq]
  simp only [View.readAt_eq_ld, harg1.read_unread, harg2.read_unread, harg3.read_unread, harg4.read_unread, harg5.read_unread, harg8.read_unread, harg9.read_unread, View.ld_unit_zero (S := S512x512) zeroOffs_eq, View.readCov_unit_zero (S := S512x512) _ zeroOffs_eq]

end Cert.KernelIdeal.Val

end
-- ==== Proof.KI.ValPay.lean ====
/-
  The arithmetic of the two kernel bodies read at an index, at the ideal instance: a float is an extended real,
  a change of float format is the identity, and a matrix product into a zero accumulator is the plain sum of
  products over the contracted axis. With  pr a w r d = sum over c of a[r, c] * w[d, c]  (a row of a against a
  row of w), the first call's scratch update adds to what the scratch held the sum over the tile's rows r of
  pr a wk r d * pr a wv r e, and the second call's stored value at (r, e) is the sum over d of pr a wq r d * M[d, e].
-/
import proofs.«133017_j15470472200192_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-- Row r of a against row d of w. -/
def pr (a w : FVec Ideal S512x512 .f32) (r d : Fin 512) : EReal := ∑ c : Fin 512, a (ix2 r c) * w (ix2 d c)

/-! ## The three contractions read at an index

Each record names which axis of each operand is summed over and which one carries the output coordinate. For
each record the four facts below say, axis by axis, where the operand is read: a kept axis copies the output's
coordinate, a summed axis takes the summation variable. -/

theorem lhs11_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs11_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs11_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs11_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- Rows against rows: out[p, q] is the sum over k of l[p, k] * r[q, k]. -/
theorem mm11_apply (l r : FVec Ideal S512x512 .bf16) (p q : Fin 512) :
    matmul dot_S512x512_S512x512_S512x512_1_1_0_0_n_n none l r (constant (F := Ideal) S512x512 .f32 0x00000000#32) (ix2 p q)
      = ∑ k : Fin 512, l (ix2 p k) * r (ix2 q k) := by
  show FloatOps.matmul dot_S512x512_S512x512_S512x512_1_1_0_0_n_n none l r (constant S512x512 .f32 0x00000000#32) (ix2 p q) = _
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p q) ((contrEquiv1 dot_S512x512_S512x512_S512x512_1_1_0_0_n_n 512 rfl rfl).symm k) = ix2 p k := funext fun a => Fin.ext (by
    match a with
    | ⟨0, _⟩ => exact lhs11_0 _ _
    | ⟨1, _⟩ => exact (lhs11_1 _ _).trans hk)
  have er : dot_S512x512_S512x512_S512x512_1_1_0_0_n_n.rhsIdx (ix2 p q) ((contrEquiv1 dot_S512x512_S512x512_S512x512_1_1_0_0_n_n 512 rfl rfl).symm k) = ix2 q k := funext fun a => Fin.ext (by
    match a with
    | ⟨0, _⟩ => exact rhs11_0 _ _
    | ⟨1, _⟩ => exact (rhs11_1 _ _).trans hk)
  rw [el, er]

theorem lhs00_0 (i : S512x512.Idx) (q : dot_S512x512_S512x512_S512x512_0_0_1_1_n_n.contr.Idx) :
    (dot_S512x512_S512x512_S512x512_0_0_1_1_n_n.lhsIdx i q 0).val = (q ⟨0, by decide⟩).val :=
  dot_S512x512_S512x512_S512x512_0_0_1_1_n_n.lhsIdx_val_of_single rfl i q
theorem lhs00_1 (i : S512x512.Idx) (q : dot_S512x512_S512x512_S512x512_0_0_1_1_n_n.contr.Idx) :
    (dot_S512x512_S512x512_S512x512_0_0_1_1_n_n.lhsIdx i q 1).val = (i 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
theorem rhs00_0 (i : S512x512.Idx) (q : dot_S512x512_S512x512_S512x512_0_0_1_1_n_n.contr.Idx) :
    (dot_S512x512_S512x512_S512x512_0_0_1_1_n_n.rhsIdx i q 0).val = (q ⟨0, by decide⟩).val :=
  dot_S512x512_S512x512_S512x512_0_0_1_1_n_n.rhsIdx_val_of_single rfl i q
theorem rhs00_1 (i : S512x512.Idx) (q : dot_S512x512_S512x512_S512x512_0_0_1_1_n_n.contr.Idx) :
    (dot_S512x512_S512x512_S512x512_0_0_1_1_n_n.rhsIdx i q 1).val = (i 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

/-- Columns against columns: out[p, q] is the sum over k of l[k, p] * r[k, q]. -/
theorem mm00_apply (l r : FVec Ideal S512x512 .bf16) (p q : Fin 512) :
    matmul dot_S512x512_S512x512_S512x512_0_0_1_1_n_n none l r (constant (F := Ideal) S512x512 .f32 0x00000000#32) (ix2 p q)
      = ∑ k : Fin 512, l (ix2 k p) * r (ix2 k q) := by
  show FloatOps.matmul dot_S512x512_S512x512_S512x512_0_0_1_1_n_n none l r (constant S512x512 .f32 0x00000000#32) (ix2 p q) = _
  rw [Ideal.matmul_constant_zero_apply, ← Equiv.sum_comp (contrEquiv1 dot_S512x512_S512x512_S512x512_0_0_1_1_n_n 512 rfl rfl).symm]
  refine Finset.sum_congr rfl fun k _ => ?_
  have hk := contrEquiv1_symm_val dot_S512x512_S512x512_S512x512_0_0_1_1_n_n 512 rfl rfl k
  have el : dot_S512x512_S512x512_S512x512_0_0_1_1_n_n.lhsIdx (ix2 p q) ((contrEquiv1 dot_S512x512_S512x512_S512x512_0_0_1_1_n_n 512 rfl rfl).symm k) = ix2 k p := funext fun a => Fin.ext (by
    match a with
    | ⟨0, _⟩ => exact (lhs00_0 _ _).trans hk
    | ⟨1, _⟩ => exact lhs00_1 _ _)
  have er : dot_S512x512_S512x512_S512x512_0_0_1_1_n_n.rhsIdx (ix2 p q) ((contrEquiv1 dot_S512x512_S512x512_S512x512_0_0_1_1_n_n 512 rfl rfl).symm k) = ix2 k q := funext fun a => Fin.ext (by
    match a with
    | ⟨0, _⟩ => exact (rhs00_0 _ _).trans hk
    | ⟨1, _⟩ => exact rhs00_1 _ _)
  rw [el, er]

theorem lhs10_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs10_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs10_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs10_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The plain product: out[p, q] is the sum over k of l[p, k] * r[k, q]. -/
theorem mm10_apply (l r : FVec Ideal S512x512 .bf16) (p q : Fin 512) :
    matmul dot_S512x512_S512x512_S512x512_1_0_0_1_n_n none l r (constant (F := Ideal) S512x512 .f32 0x00000000#32) (ix2 p q)
      = ∑ k : Fin 512, l (ix2 p k) * r (ix2 k q) := by
  show FloatOps.matmul dot_S512x512_S512x512_S512x512_1_0_0_1_n_n none l r (constant S512x512 .f32 0x00000000#32) (ix2 p q) = _
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs10_0 _ _
    | ⟨1, _⟩ => exact (lhs10_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs10_0 _ _).trans hk
    | ⟨1, _⟩ => exact rhs10_1 _ _)
  rw [el, er]

/-! ## The payloads -/

/-- The zero the scratch is reset to. -/
theorem k0_pay2_apply (i : S512x512.Idx) : k0_pay2 (F := Ideal) i = 0 := by
  simp only [k0_pay2, shapeCast_self]
  exact Ideal.ofBits_zero_f32
theorem k0_pay3_apply (i : S512x512.Idx) : k0_pay3 (F := Ideal) i = 0 := by
  simp only [k0_pay3, shapeCast_self]
  exact Ideal.ofBits_zero_f32

/-- Head 1's scratch update: what the scratch held plus the tile's sum of key-row times value-row products. -/
theorem k0_pay4_apply (v3 v7 v9 v23 : FVec Ideal S512x512 .f32) (d e : Fin 512) :
    k0_pay4 (F := Ideal) v3 v7 v9 v23 (ix2 d e) = v23 (ix2 d e) + ∑ r : Fin 512, pr v3 v7 r d * pr v3 v9 r e := by
  simp only [k0_pay4, shapeCast_self]
  rw [addf_apply, mm00_apply]
  congr 1
  refine Finset.sum_congr rfl fun r _ => ?_
  rw [truncf_apply, truncf_apply, mm11_apply, mm11_apply]
  simp only [truncf_apply, pr]

/-- Head 2's tile sum, before it is added to the scratch. -/
theorem k0_pay5_apply (v5 v11 v13 : FVec Ideal S512x512 .f32) (d e : Fin 512) :
    k0_pay5 (F := Ideal) v5 v11 v13 (ix2 d e) = ∑ r : Fin 512, pr v5 v11 r d * pr v5 v13 r e := by
  simp only [k0_pay5]
  rw [mm00_apply]
  refine Finset.sum_congr rfl fun r _ => ?_
  rw [truncf_apply, truncf_apply, mm11_apply, mm11_apply]
  simp only [truncf_apply, pr]

/-- Head 2's scratch update: what the scratch held plus the tile sum. -/
theorem k0_pay1_apply (v29 v30 : FVec Ideal S512x512 .f32) (i : S512x512.Idx) :
    k0_pay1 (F := Ideal) v29 v30 i = v29 i + v30 i := by
  simp only [k0_pay1, shapeCast_self]
  rfl

/-- The second call's stored values: the query row against the accumulated matrix's column. -/
theorem k1_pay1_apply (v0 v4 v12 : FVec Ideal S512x512 .f32) (r e : Fin 512) :
    k1_pay1 (F := Ideal) v0 v4 v12 (ix2 r e) = ∑ d : Fin 512, pr v0 v4 r d * v12 (ix2 d e) := by
  simp only [k1_pay1, shapeCast_self]
  rw [mm10_apply]
  refine Finset.sum_congr rfl fun d _ => ?_
  rw [truncf_apply, truncf_apply, mm11_apply]
  simp only [truncf_apply, pr]
theorem k1_pay2_apply (v2 v6 v15 : FVec Ideal S512x512 .f32) (r e : Fin 512) :
    k1_pay2 (F := Ideal) v2 v6 v15 (ix2 r e) = ∑ d : Fin 512, pr v2 v6 r d * v15 (ix2 d e) := by
  simp only [k1_pay2, shapeCast_self]
  rw [mm10_apply]
  refine Finset.sum_congr rfl fun d _ => ?_
  rw [truncf_apply, truncf_apply, mm11_apply]
  simp only [truncf_apply, pr]

end Cert.KernelIdeal.Val

end
-- ==== Proof.Spec.lean ====
/-
  The mathematics of the claim, with no program in sight.

  Inputs: x of shape 4096 x 1024 (rows are sequence positions, the two halves of the columns are the two heads)
  and, per head, three 512 x 512 weight matrices. For a head whose columns start at off, the projection of x by
  a weight W is  P_W[n, d] = sum over c of x[n, off + c] * W[d, c].

  The kernel's side: with K, V, Q the projections by the key, value and query weights, it forms the 512 x 512
  matrix  M[d, e] = sum over rows m of K[m, d] * V[m, e], accumulated one tile of 512 rows after another into a
  zero start, and then  out[n, e] = sum over d of Q[n, d] * M[d, e].

  The reference's side:  out[n, e] = sum over m of (sum over d of Q[n, d] * K[m, d]) * V[m, e].

  Over the reals the two are equal: distribute the product over the inner sums and exchange the two finite sums.
  On the extended reals distributivity needs every entry finite, which is what the precondition gives.
-/
import Idealize.ShloMosaic.Lib.ValueIdx
import Idealize.ShloMosaic.PureOps.Ideal
import Mathlib.Data.EReal.Basic
import Mathlib.Data.Finset.Insert
import Mathlib.Algebra.BigOperators.Group.Finset.Defs
import Mathlib.Algebra.BigOperators.Group.Finset.Basic
import Mathlib.Algebra.BigOperators.Group.Finset.Sigma
import Mathlib.Algebra.BigOperators.Ring.Finset
import Mathlib.Data.Fintype.BigOperators
import Mathlib.Logic.Equiv.Fin.Basic

noncomputable section

namespace Cert.Spec

open Idealize.ShloMosaic Idealize.ShloMosaic.ValueIdx
open scoped BigOperators

/-- The shape of x and of the result. -/
abbrev SX : Shape := ⟨2, ![4096, 1024]⟩
/-- The shape of a weight matrix. -/
abbrev SW : Shape := ⟨2, ![512, 512]⟩

/-- Column off + c of x: channel c of the head whose columns start at off. -/
def col (off : ℕ) (hoff : off + 512 ≤ 1024) (c : Fin 512) : Fin 1024 := ⟨off + c.val, by have := c.isLt; omega⟩

/-- Row 512 * t + r of x: row r of tile t (wrapped below 4096, which changes nothing for t < 8). -/
def row (t : ℕ) (r : Fin 512) : Fin 4096 := ⟨(512 * t + r.val) % 4096, Nat.mod_lt _ (by norm_num)⟩

/-- A projection as the kernel spells it: x[n, off + c] * W[d, c], summed over c. -/
def proj (x : SX.Idx → EReal) (off : ℕ) (hoff : off + 512 ≤ 1024) (W : SW.Idx → EReal) (n : Fin 4096) (d : Fin 512) : EReal :=
  ∑ c : Fin 512, x (ix2 n (col off hoff c)) * W (ix2 d c)

/-- The same projection as the reference spells it: W[d, c] * x[n, off + c], summed over c. -/
def projT (x : SX.Idx → EReal) (off : ℕ) (hoff : off + 512 ≤ 1024) (W : SW.Idx → EReal) (d : Fin 512) (n : Fin 4096) : EReal :=
  ∑ c : Fin 512, W (ix2 d c) * x (ix2 n (col off hoff c))

/-- Tile t's contribution to M[d, e]: K[m, d] * V[m, e] summed over the 512 rows m of the tile. -/
def tile (x : SX.Idx → EReal) (off : ℕ) (hoff : off + 512 ≤ 1024) (Wk Wv : SW.Idx → EReal) (t : ℕ) (d e : Fin 512) : EReal :=
  ∑ r : Fin 512, proj x off hoff Wk (row t r) d * proj x off hoff Wv (row t r) e

/-- A running sum from a zero start: 0 + T 0 after the first step, then one more term per step. -/
def accN (T : ℕ → EReal) : ℕ → EReal
  | 0 => 0 + T 0
  | n + 1 => accN T n + T (n + 1)

/-- M[d, e] after tiles 0 .. n have been accumulated. -/
def accM (x : SX.Idx → EReal) (off : ℕ) (hoff : off + 512 ≤ 1024) (Wk Wv : SW.Idx → EReal) (n : ℕ) (d e : Fin 512) : EReal :=
  accN (fun t => tile x off hoff Wk Wv t d e) n

/-- One head of the kernel's result: Q[n, d] * M[d, e] summed over d, with all eight tiles in M. -/
def headK (x : SX.Idx → EReal) (off : ℕ) (hoff : off + 512 ≤ 1024) (Wq Wk Wv : SW.Idx → EReal) (n : Fin 4096) (e : Fin 512) : EReal :=
  ∑ d : Fin 512, proj x off hoff Wq n d * accM x off hoff Wk Wv 7 d e

/-- One head of the reference's result: the score S[n, m] = sum over d of Q[n, d] * K[m, d], times V[m, e], summed over m. -/
def headR (x : SX.Idx → EReal) (off : ℕ) (hoff : off + 512 ≤ 1024) (Wq Wk Wv : SW.Idx → EReal) (n : Fin 4096) (e : Fin 512) : EReal :=
  ∑ m : Fin 4096, (∑ d : Fin 512, projT x off hoff Wq d n * projT x off hoff Wk d m) * projT x off hoff Wv e m

/-- The two heads side by side along the columns. -/
def cat (h1 h2 : Fin 4096 → Fin 512 → EReal) : SX.Idx → EReal := fun i =>
  if h : (i 1).val < 512 then h1 (i 0) ⟨(i 1).val, h⟩
  else h2 (i 0) ⟨(i 1).val - 512, by have := (i 1).isLt; change (i 1).val < 1024 at this; omega⟩

/-- The kernel's result as one function of the seven argument arrays. -/
def GK (x : SX.Idx → EReal) (Wq1 Wq2 Wk1 Wk2 Wv1 Wv2 : SW.Idx → EReal) : SX.Idx → EReal :=
  cat (headK x 0 (by norm_num) Wq1 Wk1 Wv1) (headK x 512 (by norm_num) Wq2 Wk2 Wv2)

/-- The reference's result as one function of the seven argument arrays. -/
def GR (x : SX.Idx → EReal) (Wq1 Wq2 Wk1 Wk2 Wv1 Wv2 : SW.Idx → EReal) : SX.Idx → EReal :=
  cat (headR x 0 (by norm_num) Wq1 Wk1 Wv1) (headR x 512 (by norm_num) Wq2 Wk2 Wv2)

/-- Every entry of an array is a real number. -/
def Finite {s : Shape} (a : s.Idx → EReal) : Prop := ∀ i, ∃ r : ℝ, a i = (r : EReal)

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running sum after step n is the sum of the terms 0 .. n: the zero start adds nothing. -/
theorem accN_eq_sum (T : ℕ → EReal) (n : ℕ) : accN T n = ∑ t ∈ Finset.range (n + 1), T t := by
  induction n with
  | zero => simp [accN]
  | succ k ih => rw [accN, ih, Finset.sum_range_succ _ (k + 1)]

/-- For a tile t below 8 the wrap below 4096 changes nothing: row t r is 512 * t + r. -/
theorem row_val (t : Fin 8) (r : Fin 512) : (row t.val r).val = r.val + 512 * t.val := by
  have ht := t.isLt
  have hr := r.isLt
  unfold row
  simp only
  rw [Nat.mod_eq_of_lt (by omega)]
  omega

/-- The 4096 rows are the 8 tiles of 512 rows: a sum over all rows is the sum over the tiles of the sums over each tile's rows. -/
theorem sum_rows {M : Type*} [AddCommMonoid M] (f : Fin 4096 → M) :
    ∑ m : Fin 4096, f m = ∑ t ∈ Finset.range 8, ∑ r : Fin 512, f (row t r) := by
  rw [← Fin.sum_univ_eq_sum_range (fun t => ∑ r : Fin 512, f (row t r)) 8]
  rw [← Fintype.sum_prod_type' (fun (t : Fin 8) (r : Fin 512) => f (row t.val r))]
  symm
  refine Fintype.sum_equiv (finProdFinEquiv (m := 8) (n := 512)) _ _ (fun p => ?_)
  congr 1
  apply Fin.ext
  rw [row_val]
  rfl

/-- The identity over the reals: distribute Q over the tile sums, put the tiles back together into all rows, and exchange the sum over d with the sum over m. -/
theorem real_identity (Q K V : Fin 4096 → Fin 512 → ℝ) (n : Fin 4096) (e : Fin 512) :
    ∑ d : Fin 512, Q n d * ∑ t ∈ Finset.range 8, ∑ r : Fin 512, K (row t r) d * V (row t r) e
      = ∑ m : Fin 4096, (∑ d : Fin 512, Q n d * K m d) * V m e := by
  have h : ∀ d : Fin 512, ∑ t ∈ Finset.range 8, ∑ r : Fin 512, K (row t r) d * V (row t r) e
      = ∑ m : Fin 4096, K m d * V m e := fun d => (sum_rows (fun m => K m d * V m e)).symm
  simp only [h, Finset.mul_sum, Finset.sum_mul]
  rw [Finset.sum_comm]
  exact Finset.sum_congr rfl (fun m _ => Finset.sum_congr rfl (fun d _ => (mul_assoc _ _ _).symm))

/-- With real entries the kernel's projection is the coercion of the real projection. -/
theorem proj_coe (x : SX.Idx → ℝ) (off : ℕ) (hoff : off + 512 ≤ 1024) (W : SW.Idx → ℝ) (n : Fin 4096) (d : Fin 512) :
    proj (fun i => (x i : EReal)) off hoff (fun i => (W i : EReal)) n d
      = ((∑ c : Fin 512, x (ix2 n (col off hoff c)) * W (ix2 d c) : ℝ) : EReal) := by
  unfold proj
  rw [coe_sum]
  exact Finset.sum_congr rfl (fun c _ => (EReal.coe_mul _ _).symm)

/-- With real entries the reference's projection is the coercion of the same real projection: the factors commute. -/
theorem projT_coe (x : SX.Idx → ℝ) (off : ℕ) (hoff : off + 512 ≤ 1024) (W : SW.Idx → ℝ) (d : Fin 512) (n : Fin 4096) :
    projT (fun i => (x i : EReal)) off hoff (fun i => (W i : EReal)) d n
      = ((∑ c : Fin 512, x (ix2 n (col off hoff c)) * W (ix2 d c) : ℝ) : EReal) := by
  unfold projT
  rw [coe_sum]
  exact Finset.sum_congr rfl (fun c _ => by rw [mul_comm, EReal.coe_mul])

/-- One head: with every entry real, accumulating the tiles and then contracting with Q is contracting the scores
    with V. -/
theorem headK_eq_headR (x : SX.Idx → EReal) (off : ℕ) (hoff : off + 512 ≤ 1024) (Wq Wk Wv : SW.Idx → EReal)
    (hx : Finite x) (hq : Finite Wq) (hk : Finite Wk) (hv : Finite Wv) (n : Fin 4096) (e : Fin 512) :
    headK x off hoff Wq Wk Wv n e = headR x off hoff Wq Wk Wv n e := by
  have hx' : ∀ i, ∃ r : ℝ, x i = (r : EReal) := hx
  have hq' : ∀ i, ∃ r : ℝ, Wq i = (r : EReal) := hq
  have hk' : ∀ i, ∃ r : ℝ, Wk i = (r : EReal) := hk
  have hv' : ∀ i, ∃ r : ℝ, Wv i = (r : EReal) := hv
  choose xr hxr using hx'
  choose qr hqr using hq'
  choose kr hkr using hk'
  choose vr hvr using hv'
  obtain rfl : x = fun i => (xr i : EReal) := funext hxr
  obtain rfl : Wq = fun i => (qr i : EReal) := funext hqr
  obtain rfl : Wk = fun i => (kr i : EReal) := funext hkr
  obtain rfl : Wv = fun i => (vr i : EReal) := funext hvr
  unfold headK headR accM tile
  simp only [accN_eq_sum, proj_coe, projT_coe, ← EReal.coe_mul, ← coe_sum]
  exact congrArg Real.toEReal
    (real_identity
      (fun m d => ∑ c : Fin 512, xr (ix2 m (col off hoff c)) * qr (ix2 d c))
      (fun m d => ∑ c : Fin 512, xr (ix2 m (col off hoff c)) * kr (ix2 d c))
      (fun m d => ∑ c : Fin 512, xr (ix2 m (col off hoff c)) * vr (ix2 d c)) n e)

/-- The whole result: the two programs compute one function of finite inputs. -/
theorem GK_eq_GR (x : SX.Idx → EReal) (Wq1 Wq2 Wk1 Wk2 Wv1 Wv2 : SW.Idx → EReal)
    (hx : Finite x) (hq1 : Finite Wq1) (hq2 : Finite Wq2) (hk1 : Finite Wk1) (hk2 : Finite Wk2)
    (hv1 : Finite Wv1) (hv2 : Finite Wv2) :
    GK x Wq1 Wq2 Wk1 Wk2 Wv1 Wv2 = GR x Wq1 Wq2 Wk1 Wk2 Wv1 Wv2 := by
  funext i
  unfold GK GR cat
  split
  · exact headK_eq_headR x 0 _ Wq1 Wk1 Wv1 hx hq1 hk1 hv1 _ _
  · exact headK_eq_headR x 512 _ Wq2 Wk2 Wv2 hx hq2 hk2 hv2 _ _

end Cert.Spec

end
-- ==== Proof.KI.Val0.lean ====
/-
  What the first call leaves in its two output arrays, at the ideal instance: the scratch matrix of head 1 after
  point n holds, at (d, e), the running sum over tiles 0 .. n of the sum over the tile's rows m of K[m, d] * V[m, e],
  K and V the projections of x's left half by Wk1 and Wv1 (head 2: the right half, Wk2 and Wv2); the last point
  copies the two scratch matrices into the two outputs, which are written back there and only there.
-/
import proofs.«133017_j15470472200192_1_alg».proof.Proof.KI.Val0P
import proofs.«133017_j15470472200192_1_alg».proof.Proof.KI.ValPay
import proofs.«133017_j15470472200192_1_alg».proof.Proof.Spec
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)
open scoped BigOperators

section
variable (V : (c : Dev nD) → (b : Ref sig .tc) → Buf (Elt Ideal) ((c : Thread nD τ).loc b)) (c : Dev nD)

/-- The tile of x a point reads, and the four weight matrices as the point reads them. -/
abbrev xblk0 (t : Fin cfg0.N) : Vec Ideal S512x1024 .f32 := iblk0 V c 0 t
abbrev wk1_0 (t : Fin cfg0.N) : Vec Ideal S512x512 .f32 := iblk0 V c 1 t
abbrev wv1_0 (t : Fin cfg0.N) : Vec Ideal S512x512 .f32 := iblk0 V c 2 t
abbrev wk2_0 (t : Fin cfg0.N) : Vec Ideal S512x512 .f32 := iblk0 V c 3 t
abbrev wv2_0 (t : Fin cfg0.N) : Vec Ideal S512x512 .f32 := iblk0 V c 4 t

/-- The grid has eight points. -/
theorem point_lt0 (t : Fin cfg0.N) : t.val < 8 := lt_of_lt_of_eq t.isLt (show cfg0.N = 8 from N_0)

/-- Point t reads block (t, 0) of x; every weight and both outputs sit at block (0, 0). -/
theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Entry y of the tile point t reads is entry (512 t + y 0, y 1) of x. -/
theorem xblk0_apply (t : Fin cfg0.N) (y : S512x1024.Idx) (n : Fin 4096) (k : Fin 1024)
    (hn : n.val = 512 * t.val + (y 0).val) (hk : k.val = (y 1).val) :
    xblk0 V c t y = V c main_arg0 (ix2 n k) := by
  show ((cfg0.win 0).blk t).view.read (Elt Ideal) (V c (Pipeline.arrRef spec0 0)) y = _
  rw [View.read_apply]
  show V c main_arg0 _ = V c main_arg0 _
  congr 1
  funext a
  apply Fin.ext
  match a with
  | ⟨0, _⟩ => show win0_0.index t 0 * 512 + 1 * (y 0).val = n.val; rw [(index0_0 t).1, hn]; omega
  | ⟨1, _⟩ => show win0_0.index t 1 * 1024 + 1 * (y 1).val = k.val; rw [(index0_0 t).2, hk]; omega

/-- The left half of the tile: channel k of head 1 at row r of tile t. -/
theorem xblk0_left (t : Fin cfg0.N) (r k : Fin 512) :
    View.ld (xblk0 V c t) rL (ix2 r k) = V c main_arg0 (ix2 (Cert.Spec.row t.val r) (Cert.Spec.col 0 (by norm_num) k)) := by
  have h8 := point_lt0 t
  refine xblk0_apply V c t (rL.idx (ix2 r k)) _ _ ?_ ?_
  · show (512 * t.val + r.val) % 4096 = 512 * t.val + (0 + 1 * r.val)
    have := r.isLt; omega
  · show 0 + k.val = 0 + 1 * k.val
    omega

/-- The right half of the tile: channel k of head 2 at row r of tile t. -/
theorem xblk0_right (t : Fin cfg0.N) (r k : Fin 512) :
    View.ld (xblk0 V c t) rR (ix2 r k) = V c main_arg0 (ix2 (Cert.Spec.row t.val r) (Cert.Spec.col 512 (by norm_num) k)) := by
  have h8 := point_lt0 t
  refine xblk0_apply V c t (rR.idx (ix2 r k)) _ _ ?_ ?_
  · show (512 * t.val + r.val) % 4096 = 512 * t.val + (0 + 1 * r.val)
    have := r.isLt; omega
  · show 512 + k.val = 512 + 1 * k.val
    omega

/-- A weight window's one block is the weight matrix itself. -/
theorem wk1_0_eq (t : Fin cfg0.N) : wk1_0 V c t = V c main_arg3 := by
  funext y
  show ((cfg0.win 1).blk t).view.read (Elt Ideal) (V c (Pipeline.arrRef spec0 1)) y = _
  rw [View.read_apply]
  show V c main_arg3 _ = V c main_arg3 _
  congr 1
  funext a
  apply Fin.ext
  match a with
  | ⟨0, _⟩ => show win0_1.index t 0 * 512 + 1 * (y 0).val = (y 0).val; rw [(index0_1 t).1]; omega
  | ⟨1, _⟩ => show win0_1.index t 1 * 512 + 1 * (y 1).val = (y 1).val; rw [(index0_1 t).2]; omega
theorem wv1_0_eq (t : Fin cfg0.N) : wv1_0 V c t = V c main_arg5 := by
  funext y
  show ((cfg0.win 2).blk t).view.read (Elt Ideal) (V c (Pipeline.arrRef spec0 2)) y = _
  rw [View.read_apply]
  show V c main_arg5 _ = V c main_arg5 _
  congr 1
  funext a
  apply Fin.ext
  match a with
  | ⟨0, _⟩ => show win0_2.index t 0 * 512 + 1 * (y 0).val = (y 0).val; rw [(index0_2 t).1]; omega
  | ⟨1, _⟩ => show win0_2.index t 1 * 512 + 1 * (y 1).val = (y 1).val; rw [(index0_2 t).2]; omega
theorem wk2_0_eq (t : Fin cfg0.N) : wk2_0 V c t = V c main_arg4 := by
  funext y
  show ((cfg0.win 3).blk t).view.read (Elt Ideal) (V c (Pipeline.arrRef spec0 3)) y = _
  rw [View.read_apply]
  show V c main_arg4 _ = V c main_arg4 _
  congr 1
  funext a
  apply Fin.ext
  match a with
  | ⟨0, _⟩ => show win0_3.index t 0 * 512 + 1 * (y 0).val = (y 0).val; rw [(index0_3 t).1]; omega
  | ⟨1, _⟩ => show win0_3.index t 1 * 512 + 1 * (y 1).val = (y 1).val; rw [(index0_3 t).2]; omega
theorem wv2_0_eq (t : Fin cfg0.N) : wv2_0 V c t = V c main_arg6 := by
  funext y
  show ((cfg0.win 4).blk t).view.read (Elt Ideal) (V c (Pipeline.arrRef spec0 4)) y = _
  rw [View.read_apply]
  show V c main_arg6 _ = V c main_arg6 _
  congr 1
  funext a
  apply Fin.ext
  match a with
  | ⟨0, _⟩ => show win0_4.index t 0 * 512 + 1 * (y 0).val = (y 0).val; rw [(index0_4 t).1]; omega
  | ⟨1, _⟩ => show win0_4.index t 1 * 512 + 1 * (y 1).val = (y 1).val; rw [(index0_4 t).2]; omega

/-- A row of the tile's left half against a row of a weight matrix is the projection of x's row by that weight. -/
theorem pr_left0 (t : Fin cfg0.N) (W : Vec Ideal S512x512 .f32) (r d : Fin 512) :
    pr (View.ld (xblk0 V c t) rL) W r d = Cert.Spec.proj (V c main_arg0) 0 (by norm_num) W (Cert.Spec.row t.val r) d := by
  unfold pr Cert.Spec.proj
  exact Finset.sum_congr rfl fun k _ => congrArg (· * W (ix2 d k)) (xblk0_left V c t r k)
theorem pr_right0 (t : Fin cfg0.N) (W : Vec Ideal S512x512 .f32) (r d : Fin 512) :
    pr (View.ld (xblk0 V c t) rR) W r d = Cert.Spec.proj (V c main_arg0) 512 (by norm_num) W (Cert.Spec.row t.val r) d := by
  unfold pr Cert.Spec.proj
  exact Finset.sum_congr rfl fun k _ => congrArg (· * W (ix2 d k)) (xblk0_right V c t r k)

/-- The sum over the tile's rows of key-row times value-row products is the tile's contribution to the matrix. -/
theorem tile_left0 (t : Fin cfg0.N) (d e : Fin 512) :
    ∑ r : Fin 512, pr (View.ld (xblk0 V c t) rL) (wk1_0 V c t) r d * pr (View.ld (xblk0 V c t) rL) (wv1_0 V c t) r e
      = Cert.Spec.tile (V c main_arg0) 0 (by norm_num) (V c main_arg3) (V c main_arg5) t.val d e := by
  unfold Cert.Spec.tile
  refine Finset.sum_congr rfl fun r _ => ?_
  rw [pr_left0, pr_left0, wk1_0_eq, wv1_0_eq]
theorem tile_right0 (t : Fin cfg0.N) (d e : Fin 512) :
    ∑ r : Fin 512, pr (View.ld (xblk0 V c t) rR) (wk2_0 V c t) r d * pr (View.ld (xblk0 V c t) rR) (wv2_0 V c t) r e
      = Cert.Spec.tile (V c main_arg0) 512 (by norm_num) (V c main_arg4) (V c main_arg6) t.val d e := by
  unfold Cert.Spec.tile
  refine Finset.sum_congr rfl fun r _ => ?_
  rw [pr_right0, pr_right0, wk2_0_eq, wv2_0_eq]

/-- The first point: the scratch matrices are reset to zero and then take the first tile's sums. -/
theorem first_point0 (t : Fin cfg0.N) (h0 : t.val % 8 = 0) (h1 : ¬t.val % 8 = 7) (d e : Fin 512) :
    (outsAt0 V c t.val t.isLt).2.2.1 (ix2 d e)
      = 0 + Cert.Spec.tile (V c main_arg0) 0 (by norm_num) (V c main_arg3) (V c main_arg5) t.val d e
    ∧ (outsAt0 V c t.val t.isLt).2.2.2 (ix2 d e)
      = 0 + Cert.Spec.tile (V c main_arg0) 512 (by norm_num) (V c main_arg4) (V c main_arg6) t.val d e := by
  rw [outsAt0_A V c t h0 h1]
  dsimp only
  constructor
  · refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (xblk0 V c t) (wk1_0 V c t) (wv1_0 V c t) (wk2_0 V c t) (wv2_0 V c t)) (ix2 d e)).trans ?_
    refine (k0_pay4_apply _ _ _ _ d e).trans ?_
    rw [k0_pay2_apply, tile_left0]
  · refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (xblk0 V c t) (wk1_0 V c t) (wv1_0 V c t) (wk2_0 V c t) (wv2_0 V c t)) (ix2 d e)).trans ?_
    refine (k0_pay1_apply _ _ (ix2 d e)).trans ?_
    rw [k0_pay3_apply, k0_pay5_apply, tile_right0]

/-- A middle point: each scratch matrix takes its tile's sums on top of what the point before left. -/
theorem middle_point0 (t : Fin cfg0.N) (h0 : ¬t.val % 8 = 0) (h1 : ¬t.val % 8 = 7) (d e : Fin 512) :
    (outsAt0 V c t.val t.isLt).2.2.1 (ix2 d e)
      = (outsAt0 V c (t.val - 1) (Nat.lt_of_le_of_lt (Nat.sub_le _ _) t.isLt)).2.2.1 (ix2 d e)
        + Cert.Spec.tile (V c main_arg0) 0 (by norm_num) (V c main_arg3) (V c main_arg5) t.val d e
    ∧ (outsAt0 V c t.val t.isLt).2.2.2 (ix2 d e)
      = (outsAt0 V c (t.val - 1) (Nat.lt_of_le_of_lt (Nat.sub_le _ _) t.isLt)).2.2.2 (ix2 d e)
        + Cert.Spec.tile (V c main_arg0) 512 (by norm_num) (V c main_arg4) (V c main_arg6) t.val d e := by
  rw [outsAt0_B V c t h0 h1]
  dsimp only
  constructor
  · refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (xblk0 V c t) (wk1_0 V c t) (wv1_0 V c t) (wk2_0 V c t) (wv2_0 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 d e)).trans ?_
    refine (k0_pay4_apply _ _ _ _ d e).trans ?_
    rw [tile_left0]
  · refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (xblk0 V c t) (wk1_0 V c t) (wv1_0 V c t) (wk2_0 V c t) (wv2_0 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 d e)).trans ?_
    refine (k0_pay1_apply _ _ (ix2 d e)).trans ?_
    rw [k0_pay5_apply, tile_right0]

/-- The last point: the same update of the scratch matrices, and the two outputs are stored with the updated values. -/
theorem last_point0 (t : Fin cfg0.N) (h0 : ¬t.val % 8 = 0) (h1 : t.val % 8 = 7) (d e : Fin 512) :
    ((outsAt0 V c t.val t.isLt).2.2.1 (ix2 d e)
      = (outsAt0 V c (t.val - 1) (Nat.lt_of_le_of_lt (Nat.sub_le _ _) t.isLt)).2.2.1 (ix2 d e)
        + Cert.Spec.tile (V c main_arg0) 0 (by norm_num) (V c main_arg3) (V c main_arg5) t.val d e
    ∧ (outsAt0 V c t.val t.isLt).2.2.2 (ix2 d e)
      = (outsAt0 V c (t.val - 1) (Nat.lt_of_le_of_lt (Nat.sub_le _ _) t.isLt)).2.2.2 (ix2 d e)
        + Cert.Spec.tile (V c main_arg0) 512 (by norm_num) (V c main_arg4) (V c main_arg6) t.val d e)
    ∧ ((outsAt0 V c t.val t.isLt).1 (ix2 d e)
      = (outsAt0 V c (t.val - 1) (Nat.lt_of_le_of_lt (Nat.sub_le _ _) t.isLt)).2.2.1 (ix2 d e)
        + Cert.Spec.tile (V c main_arg0) 0 (by norm_num) (V c main_arg3) (V c main_arg5) t.val d e
    ∧ (outsAt0 V c t.val t.isLt).2.1 (ix2 d e)
      = (outsAt0 V c (t.val - 1) (Nat.lt_of_le_of_lt (Nat.sub_le _ _) t.isLt)).2.2.2 (ix2 d e)
        + Cert.Spec.tile (V c main_arg0) 512 (by norm_num) (V c main_arg4) (V c main_arg6) t.val d e) := by
  rw [outsAt0_C V c t h0 h1]
  dsimp only
  refine ⟨⟨?_, ?_⟩, ?_, ?_⟩
  · refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (xblk0 V c t) (wk1_0 V c t) (wv1_0 V c t) (wk2_0 V c t) (wv2_0 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 d e)).trans ?_
    refine (k0_pay4_apply _ _ _ _ d e).trans ?_
    rw [tile_left0]
  · refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (xblk0 V c t) (wk1_0 V c t) (wv1_0 V c t) (wk2_0 V c t) (wv2_0 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 d e)).trans ?_
    refine (k0_pay1_apply _ _ (ix2 d e)).trans ?_
    rw [k0_pay5_apply, tile_right0]
  · refine (congrFun (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (xblk0 V c t) (wk1_0 V c t) (wv1_0 V c t) (wk2_0 V c t) (wv2_0 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 d e)).trans ?_
    refine (k0_pay4_apply _ _ _ _ d e).trans ?_
    rw [tile_left0]
  · refine (congrFun (out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (xblk0 V c t) (wk1_0 V c t) (wv1_0 V c t) (wk2_0 V c t) (wv2_0 V c t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 d e)).trans ?_
    refine (k0_pay1_apply _ _ (ix2 d e)).trans ?_
    rw [k0_pay5_apply, tile_right0]

/-- THE INVARIANT: after point n the two scratch matrices hold the running sums of the tiles 0 .. n of their heads. -/
theorem scratch0_eq : ∀ (n : ℕ) (hn : n < cfg0.N) (d e : Fin 512),
    (outsAt0 V c n hn).2.2.1 (ix2 d e) = Cert.Spec.accM (V c main_arg0) 0 (by norm_num) (V c main_arg3) (V c main_arg5) n d e
    ∧ (outsAt0 V c n hn).2.2.2 (ix2 d e) = Cert.Spec.accM (V c main_arg0) 512 (by norm_num) (V c main_arg4) (V c main_arg6) n d e := by
  intro n
  induction n with
  | zero =>
    intro hn d e
    exact first_point0 V c ⟨0, hn⟩ rfl (by show ¬(0 : ℕ) % 8 = 7; decide) d e
  | succ m ih =>
    intro hn d e
    have h8 : m + 1 < 8 := point_lt0 ⟨m + 1, hn⟩
    have h0 : ¬(⟨m + 1, hn⟩ : Fin cfg0.N).val % 8 = 0 := by show ¬(m + 1) % 8 = 0; omega
    have hp := ih (Nat.lt_of_succ_lt hn) d e
    by_cases h1 : (⟨m + 1, hn⟩ : Fin cfg0.N).val % 8 = 7
    · have hs := (last_point0 V c ⟨m + 1, hn⟩ h0 h1 d e).1
      exact ⟨hs.1.trans (congrArg (· + Cert.Spec.tile (V c main_arg0) 0 (by norm_num) (V c main_arg3) (V c main_arg5) (m + 1) d e) hp.1),
        hs.2.trans (congrArg (· + Cert.Spec.tile (V c main_arg0) 512 (by norm_num) (V c main_arg4) (V c main_arg6) (m + 1) d e) hp.2)⟩
    · have hs := middle_point0 V c ⟨m + 1, hn⟩ h0 h1 d e
      exact ⟨hs.1.trans (congrArg (· + Cert.Spec.tile (V c main_arg0) 0 (by norm_num) (V c main_arg3) (V c main_arg5) (m + 1) d e) hp.1),
        hs.2.trans (congrArg (· + Cert.Spec.tile (V c main_arg0) 512 (by norm_num) (V c main_arg4) (V c main_arg6) (m + 1) d e) hp.2)⟩

/-- At the last point the two outputs are stored with the full sums, all eight tiles in. -/
theorem outputs0_eq (t : Fin cfg0.N) (h1 : t.val % 8 = 7) (d e : Fin 512) :
    (outsAt0 V c t.val t.isLt).1 (ix2 d e) = Cert.Spec.accM (V c main_arg0) 0 (by norm_num) (V c main_arg3) (V c main_arg5) 7 d e
    ∧ (outsAt0 V c t.val t.isLt).2.1 (ix2 d e) = Cert.Spec.accM (V c main_arg0) 512 (by norm_num) (V c main_arg4) (V c main_arg6) 7 d e := by
  have h8 := point_lt0 t
  have h7 : t.val = 7 := by omega
  have h0 : ¬t.val % 8 = 0 := by omega
  have hs := (last_point0 V c t h0 h1 d e).2
  have hp := scratch0_eq V c (t.val - 1) (Nat.lt_of_le_of_lt (Nat.sub_le _ _) t.isLt) d e
  rw [hs.1, hs.2, hp.1, hp.2, h7]
  exact ⟨rfl, rfl⟩

/-- Head 1's full matrix and head 2's, as contents of the two output arrays. -/
def G0_5 : Buf (Elt Ideal) ((cfg0.win 5).arr.view.loc (c.tc : Thread nD τ)) := fun i =>
  Cert.Spec.accM (V c main_arg0) 0 (by norm_num) (V c main_arg3) (V c main_arg5) 7 ⟨(i 0).val, (i 0).isLt⟩ ⟨(i 1).val, (i 1).isLt⟩
def G0_6 : Buf (Elt Ideal) ((cfg0.win 6).arr.view.loc (c.tc : Thread nD τ)) := fun i =>
  Cert.Spec.accM (V c main_arg0) 512 (by norm_num) (V c main_arg4) (V c main_arg6) 7 ⟨(i 0).val, (i 0).isLt⟩ ⟨(i 1).val, (i 1).isLt⟩

/-- What the last point writes back to the first output is the whole of head 1's matrix: the block is the array. -/
theorem written0_5 (t : Fin cfg0.N) (hf : (cfg0.win 5).flush t = true) :
    (dat0 (F := Ideal) V c).flushed 5 t = ((cfg0.win 5).blk t).view.read (Elt Ideal) (G0_5 V c) := by
  have h7 : t.val % 8 = 7 := (flush0_5 t).mp hf
  funext y
  rw [View.read_apply]
  show (cfg0.win 5).cut (grid0.coords t) ((dat0 (F := Ideal) V c).after 5 t) y = G0_5 V c (((cfg0.win 5).blk t).view.emb y)
  rw [after0_5]
  show (outsAt0 V c t.val t.isLt).1 y = _
  obtain ⟨a, b, rfl⟩ : ∃ (a b : Fin 512), y = ix2 a b := ⟨y 0, y 1, eq_ix2 y⟩
  rw [(outputs0_eq V c t h7 a b).1]
  unfold G0_5
  congr 1 <;> apply Fin.ext
  · show a.val = win0_5.index t 0 * 512 + 1 * a.val
    rw [(index0_5 t).1]; omega
  · show b.val = win0_5.index t 1 * 512 + 1 * b.val
    rw [(index0_5 t).2]; omega

theorem written0_6 (t : Fin cfg0.N) (hf : (cfg0.win 6).flush t = true) :
    (dat0 (F := Ideal) V c).flushed 6 t = ((cfg0.win 6).blk t).view.read (Elt Ideal) (G0_6 V c) := by
  have h7 : t.val % 8 = 7 := (flush0_6 t).mp hf
  funext y
  rw [View.read_apply]
  show (cfg0.win 6).cut (grid0.coords t) ((dat0 (F := Ideal) V c).after 6 t) y = G0_6 V c (((cfg0.win 6).blk t).view.emb y)
  rw [after0_6]
  show (outsAt0 V c t.val t.isLt).2.1 y = _
  obtain ⟨a, b, rfl⟩ : ∃ (a b : Fin 512), y = ix2 a b := ⟨y 0, y 1, eq_ix2 y⟩
  rw [(outputs0_eq V c t h7 a b).2]
  unfold G0_6
  congr 1 <;> apply Fin.ext
  · show a.val = win0_6.index t 0 * 512 + 1 * a.val
    rw [(index0_6 t).1]; omega
  · show b.val = win0_6.index t 1 * 512 + 1 * b.val
    rw [(index0_6 t).2]; omega

/-- An index of an output array lies in a point's block iff each coordinate lies in the block's range on its axis. -/
theorem mem_block0_5 (t : Fin cfg0.N) (i : S512x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v0_0).slice (win0_5.rect t)).set ↔ _
  rw [View.set_slice_whole, Rect.mem_set_unit]
  exact Iff.rfl
theorem mem_block0_6 (t : Fin cfg0.N) (i : S512x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v0_1).slice (win0_6.rect t)).set ↔ _
  rw [View.set_slice_whole, Rect.mem_set_unit]
  exact Iff.rfl

/-- The last point is there, and it writes both outputs back. -/
theorem last_point_lt0 : (7 : ℕ) < cfg0.N := by rw [show cfg0.N = 8 from N_0]; decide

/-- The last point's block of each output is the whole array, so every index is covered by a block that is written back. -/
theorem covered0_5 (i : S512x512.Idx) : ∃ t : Fin cfg0.N, (cfg0.win 5).flush t = true ∧ i ∈ ((cfg0.win 5).blk t).view.set := by
  refine ⟨⟨7, last_point_lt0⟩, (flush0_5 ⟨7, last_point_lt0⟩).mpr rfl, ?_⟩
  rw [mem_block0_5]
  have h0 : (i 0).val < 512 := (i 0).isLt
  have h1 : (i 1).val < 512 := (i 1).isLt
  intro a
  match a with
  | ⟨0, _⟩ => show win0_5.index ⟨7, last_point_lt0⟩ (0 : Fin 2) * 512 ≤ (i 0).val ∧ (i 0).val < win0_5.index ⟨7, last_point_lt0⟩ (0 : Fin 2) * 512 + 512
              rw [(index0_5 ⟨7, last_point_lt0⟩).1]; omega
  | ⟨1, _⟩ => show win0_5.index ⟨7, last_point_lt0⟩ (1 : Fin 2) * 512 ≤ (i 1).val ∧ (i 1).val < win0_5.index ⟨7, last_point_lt0⟩ (1 : Fin 2) * 512 + 512
              rw [(index0_5 ⟨7, last_point_lt0⟩).2]; omega
theorem covered0_6 (i : S512x512.Idx) : ∃ t : Fin cfg0.N, (cfg0.win 6).flush t = true ∧ i ∈ ((cfg0.win 6).blk t).view.set := by
  refine ⟨⟨7, last_point_lt0⟩, (flush0_6 ⟨7, last_point_lt0⟩).mpr rfl, ?_⟩
  rw [mem_block0_6]
  have h0 : (i 0).val < 512 := (i 0).isLt
  have h1 : (i 1).val < 512 := (i 1).isLt
  intro a
  match a with
  | ⟨0, _⟩ => show win0_6.index ⟨7, last_point_lt0⟩ (0 : Fin 2) * 512 ≤ (i 0).val ∧ (i 0).val < win0_6.index ⟨7, last_point_lt0⟩ (0 : Fin 2) * 512 + 512
              rw [(index0_6 ⟨7, last_point_lt0⟩).1]; omega
  | ⟨1, _⟩ => show win0_6.index ⟨7, last_point_lt0⟩ (1 : Fin 2) * 512 ≤ (i 1).val ∧ (i 1).val < win0_6.index ⟨7, last_point_lt0⟩ (1 : Fin 2) * 512 + 512
              rw [(index0_6 ⟨7, last_point_lt0⟩).2]; omega

end

/-- After the first call its first output holds head 1's accumulated matrix with all eight tiles in. -/
theorem final0_5 (V : (c : Dev nD) → (b : Ref sig .tc) → Buf (Elt Ideal) ((c : Thread nD τ).loc b)) (c : Dev nD) (d e : Fin 512) :
    (dat0 (F := Ideal) V c).arrAt 5 cfg0.N (ix2 d e)
      = Cert.Spec.accM (V c main_arg0) 0 (by norm_num) (V c main_arg3) (V c main_arg5) 7 d e :=
  congrFun ((dat0 (F := Ideal) V c).arrAt_eq_of_cover 5 (G0_5 V c) (written0_5 V c) covered0_5) (ix2 d e)

/-- After the first call its second output holds head 2's accumulated matrix with all eight tiles in. -/
theorem final0_6 (V : (c : Dev nD) → (b : Ref sig .tc) → Buf (Elt Ideal) ((c : Thread nD τ).loc b)) (c : Dev nD) (d e : Fin 512) :
    (dat0 (F := Ideal) V c).arrAt 6 cfg0.N (ix2 d e)
      = Cert.Spec.accM (V c main_arg0) 512 (by norm_num) (V c main_arg4) (V c main_arg6) 7 d e :=
  congrFun ((dat0 (F := Ideal) V c).arrAt_eq_of_cover 6 (G0_6 V c) (written0_6 V c) covered0_6) (ix2 d e)

end Cert.KernelIdeal.Val

end
-- ==== Proof.KI.Val1.lean ====
/-
  What the second call leaves in the result array, at the ideal instance, as one function of the arrays the call
  finds: row n, column e of the left half is the query row of head 1 (row n of x's left half against the rows of
  Wq1) against column e of the first accumulated matrix; the right half likewise for head 2. Point t writes rows
  512 t .. 512 t + 511, all 1024 columns; the eight points tile the array.
-/
import proofs.«133017_j15470472200192_1_alg».proof.Proof.KI.Reg1
import proofs.«133017_j15470472200192_1_alg».proof.Proof.KI.ValPay
import proofs.«133017_j15470472200192_1_alg».proof.Proof.Spec
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)
open scoped BigOperators

/-- The second call's result from x, the two query weights and the two accumulated matrices. -/
def G1 (x : Cert.Spec.SX.Idx → EReal) (Wq1 Wq2 M1 M2 : Cert.Spec.SW.Idx → EReal) : Cert.Spec.SX.Idx → EReal :=
  Cert.Spec.cat (fun n e => ∑ d : Fin 512, Cert.Spec.proj x 0 (by norm_num) Wq1 n d * M1 (ix2 d e))
    (fun n e => ∑ d : Fin 512, Cert.Spec.proj x 512 (by norm_num) Wq2 n d * M2 (ix2 d e))

/-! ## Where each point's blocks sit -/

/-- At point t the block of x and the block of the result both have block index (t, 0): rows 512 t onward, every column. -/
theorem index_rows1 : ∀ t : Fin cfg1.N, win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, _)

/-- The two query weights and the two accumulated matrices are read whole at every point: block index (0, 0). -/
theorem index_whole1 : ∀ t : Fin cfg1.N, (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N, _)

/-- The offset (0, 0) is the zero offset. -/
theorem zero_offsets1 : (![0, 0] : Fin 2 → ℕ) = fun _ => 0 := funext fun a => by
  match a with
  | ⟨0, _⟩ => rfl
  | ⟨1, _⟩ => rfl

/-! ## One point's block of the result, from that point's input blocks -/

/-- What the body leaves at place y of its 512 x 1024 output block, as one function of y: in the left 512 columns the
    query row of head 1 (row y 0 of the x block's left half against the rows of the first weight) against column y 1
    of the first matrix; in the right 512 columns the same for head 2, with the x block's right half, the second
    weight and column y 1 - 512 of the second matrix. -/
def blockResult1 (x0 : Vec Ideal S512x1024 .f32) (w1 w2 m1 m2 : Vec Ideal S512x512 .f32) : S512x1024.Idx → EReal := fun y =>
  if h : (y 1).val < 512 then ∑ d : Fin 512, pr (View.ld x0 rL) w1 (y 0) d * m1 (ix2 d ⟨(y 1).val, h⟩)
  else ∑ d : Fin 512, pr (View.ld x0 rR) w2 (y 0) d * m2 (ix2 d ⟨(y 1).val - 512, by
    have := (y 1).isLt; change (y 1).val < 1024 at this; omega⟩)

/-- The store of head 2 lands in the right half: place (r, e) of its payload is place (r, 512 + e) of the block, and
    there the block function takes its right-half branch at column e of the second matrix. -/
theorem head2_store1 (x0 : Vec Ideal S512x1024 .f32) (w1 w2 m1 m2 : Vec Ideal S512x512 .f32) (r e : Fin 512) :
    k1_pay2 (F := Ideal) (View.ld x0 rR) (View.ld w2 rW) (View.ld m2 rW) (ix2 r e)
      = blockResult1 x0 w1 w2 m1 m2 (rR.emb (ix2 r e)) := by
  rw [k1_pay2_apply]
  simp only [View.ld_unit_zero (S := S512x512) zero_offsets1]
  unfold blockResult1
  have h1 : (rR.emb (ix2 r e) 1).val = 512 + 1 * e.val := rfl
  have h0 : rR.emb (ix2 r e) 0 = r := Fin.ext (by show 0 + 1 * r.val = r.val; omega)
  have he : ∀ (hh : (rR.emb (ix2 r e) 1).val - 512 < 512), (⟨(rR.emb (ix2 r e) 1).val - 512, hh⟩ : Fin 512) = e :=
    fun hh => Fin.ext (by show (rR.emb (ix2 r e) 1).val - 512 = e.val; rw [h1]; omega)
  rw [dif_neg (by rw [h1]; omega)]
  refine Finset.sum_congr rfl fun d _ => ?_
  rw [h0, he, congrFun (View.ld_unit_zero (S := S512x512) zero_offsets1 _ m2) (ix2 d e)]

/-- The store of head 1 lands in the left half: place (r, e) of its payload is place (r, e) of the block, and there
    the block function takes its left-half branch at column e of the first matrix. -/
theorem head1_store1 (x0 : Vec Ideal S512x1024 .f32) (w1 w2 m1 m2 : Vec Ideal S512x512 .f32) (r e : Fin 512) :
    k1_pay1 (F := Ideal) (View.ld x0 rL) (View.ld w1 rW) (View.ld m1 rW) (ix2 r e)
      = blockResult1 x0 w1 w2 m1 m2 (rL.emb (ix2 r e)) := by
  rw [k1_pay1_apply]
  simp only [View.ld_unit_zero (S := S512x512) zero_offsets1]
  unfold blockResult1
  have h1 : (rL.emb (ix2 r e) 1).val = 0 + 1 * e.val := rfl
  have h0 : rL.emb (ix2 r e) 0 = r := Fin.ext (by show 0 + 1 * r.val = r.val; omega)
  have he : ∀ (hh : (rL.emb (ix2 r e) 1).val < 512), (⟨(rL.emb (ix2 r e) 1).val, hh⟩ : Fin 512) = e :=
    fun hh => Fin.ext (by show (rL.emb (ix2 r e) 1).val = e.val; rw [h1]; omega)
  rw [dif_pos (by rw [h1]; have := e.isLt; omega)]
  refine Finset.sum_congr rfl fun d _ => ?_
  rw [h0, he, congrFun (View.ld_unit_zero (S := S512x512) zero_offsets1 _ m1) (ix2 d e)]

/-- The two stores tile the block and each agrees with the block function on its half, so the block after the body
    is the block function everywhere. -/
theorem out1_5_apply (x0 : Vec Ideal S512x1024 .f32) (w1 w2 m1 m2 : Vec Ideal S512x512 .f32) (y : S512x1024.Idx) :
    out1_5 (F := Ideal) x0 w1 w2 m1 m2 y = blockResult1 x0 w1 w2 m1 m2 y := by
  unfold out1_5
  refine View.canon_apply_of_pieces (Val := Elt Ideal) (S := S512x1024) (e := .f32) (blockResult1 x0 w1 w2 m1 m2) _ ?_ y
    (cover1_5 _ _ y)
  intro p hp x
  simp only [List.mem_cons, List.mem_singleton, List.not_mem_nil, or_false] at hp
  rcases hp with rfl | rfl
  · rw [eq_ix2 x]; exact head2_store1 x0 w1 w2 m1 m2 (x 0) (x 1)
  · rw [eq_ix2 x]; exact head1_store1 x0 w1 w2 m1 m2 (x 0) (x 1)

/-! ## The input blocks as parts of the arrays the call finds -/

variable (V : (c : Dev nD) → (b : Ref sig .tc) → Buf (Elt Ideal) ((c : Thread nD τ).loc b)) (c : Dev nD)

/-- Place y of the x block at point t is x at row 512 t + y 0, column y 1. -/
theorem xblock1_apply (t : Fin cfg1.N) (y : S512x1024.Idx) (k : S4096x1024.Idx)
    (hk0 : (k 0).val = 512 * t.val + (y 0).val) (hk1 : (k 1).val = (y 1).val) :
    (iblk1 V c 0 t : Vec Ideal S512x1024 .f32) y = (V c main_arg0 : S4096x1024.Idx → EReal) k := by
  unfold iblk1
  rw [View.read_apply]
  obtain ⟨e0, e1, -, -⟩ := index_rows1 t
  show V c main_arg0 _ = V c main_arg0 _
  congr 1
  funext a
  apply Fin.ext
  match a with
  | ⟨0, _⟩ => show win1_0.index t (0 : Fin 2) * 512 + 1 * (y 0).val = (k 0).val; rw [e0, hk0]; omega
  | ⟨1, _⟩ => show win1_0.index t (1 : Fin 2) * 1024 + 1 * (y 1).val = (k 1).val; rw [e1, hk1]; omega

/-- The block of the first query weight is the whole weight, at every point. -/
theorem wq1block1_apply (t : Fin cfg1.N) (y : S512x512.Idx) :
    (iblk1 V c 1 t : Vec Ideal S512x512 .f32) y = (V c main_arg1 : S512x512.Idx → EReal) y := by
  unfold iblk1
  rw [View.read_apply]
  obtain ⟨⟨e0, e1⟩, -, -, -⟩ := index_whole1 t
  show V c main_arg1 _ = V c main_arg1 _
  congr 1
  funext a
  apply Fin.ext
  match a with
  | ⟨0, _⟩ => show win1_1.index t (0 : Fin 2) * 512 + 1 * (y 0).val = (y 0).val; rw [e0]; omega
  | ⟨1, _⟩ => show win1_1.index t (1 : Fin 2) * 512 + 1 * (y 1).val = (y 1).val; rw [e1]; omega

/-- The block of the second query weight is the whole weight, at every point. -/
theorem wq2block1_apply (t : Fin cfg1.N) (y : S512x512.Idx) :
    (iblk1 V c 2 t : Vec Ideal S512x512 .f32) y = (V c main_arg2 : S512x512.Idx → EReal) y := by
  unfold iblk1
  rw [View.read_apply]
  obtain ⟨-, ⟨e0, e1⟩, -, -⟩ := index_whole1 t
  show V c main_arg2 _ = V c main_arg2 _
  congr 1
  funext a
  apply Fin.ext
  match a with
  | ⟨0, _⟩ => show win1_2.index t (0 : Fin 2) * 512 + 1 * (y 0).val = (y 0).val; rw [e0]; omega
  | ⟨1, _⟩ => show win1_2.index t (1 : Fin 2) * 512 + 1 * (y 1).val = (y 1).val; rw [e1]; omega

/-- The block of the first accumulated matrix is the whole matrix, at every point. -/
theorem m1block1_apply (t : Fin cfg1.N) (y : S512x512.Idx) :
    (iblk1 V c 3 t : Vec Ideal S512x512 .f32) y = (V c main_v0_0 : S512x512.Idx → EReal) y := by
  unfold iblk1
  rw [View.read_apply]
  obtain ⟨-, -, ⟨e0, e1⟩, -⟩ := index_whole1 t
  show V c main_v0_0 _ = V c main_v0_0 _
  congr 1
  funext a
  apply Fin.ext
  match a with
  | ⟨0, _⟩ => show win1_3.index t (0 : Fin 2) * 512 + 1 * (y 0).val = (y 0).val; rw [e0]; omega
  | ⟨1, _⟩ => show win1_3.index t (1 : Fin 2) * 512 + 1 * (y 1).val = (y 1).val; rw [e1]; omega

/-- The block of the second accumulated matrix is the whole matrix, at every point. -/
theorem m2block1_apply (t : Fin cfg1.N) (y : S512x512.Idx) :
    (iblk1 V c 4 t : Vec Ideal S512x512 .f32) y = (V c main_v0_1 : S512x512.Idx → EReal) y := by
  unfold iblk1
  rw [View.read_apply]
  obtain ⟨-, -, -, ⟨e0, e1⟩⟩ := index_whole1 t
  show V c main_v0_1 _ = V c main_v0_1 _
  congr 1
  funext a
  apply Fin.ext
  match a with
  | ⟨0, _⟩ => show win1_4.index t (0 : Fin 2) * 512 + 1 * (y 0).val = (y 0).val; rw [e0]; omega
  | ⟨1, _⟩ => show win1_4.index t (1 : Fin 2) * 512 + 1 * (y 1).val = (y 1).val; rw [e1]; omega

/-- Head 1's query entry from the blocks is the projection of x: row r of the x block's left half against row d of the
    first weight is row 512 t + r of x, columns 0 .. 511, against that row, term by term. -/
theorem query_head1 (t : Fin cfg1.N) (r : Fin 512) (n : Fin 4096) (hn : n.val = 512 * t.val + r.val) (d : Fin 512)
    (hoff : 0 + 512 ≤ 1024) :
    pr (View.ld (iblk1 V c 0 t) rL) (iblk1 V c 1 t) r d = Cert.Spec.proj (V c main_arg0) 0 hoff (V c main_arg1) n d := by
  unfold pr Cert.Spec.proj
  refine Finset.sum_congr rfl fun cc _ => ?_
  rw [wq1block1_apply]
  congr 1
  exact xblock1_apply V c t _ _ (by show n.val = 512 * t.val + (0 + 1 * r.val); omega)
    (by show 0 + cc.val = 0 + 1 * cc.val; omega)

/-- Head 2's query entry likewise, with the x block's right half: columns 512 .. 1023 of x, and the second weight. -/
theorem query_head2 (t : Fin cfg1.N) (r : Fin 512) (n : Fin 4096) (hn : n.val = 512 * t.val + r.val) (d : Fin 512)
    (hoff : 512 + 512 ≤ 1024) :
    pr (View.ld (iblk1 V c 0 t) rR) (iblk1 V c 2 t) r d = Cert.Spec.proj (V c main_arg0) 512 hoff (V c main_arg2) n d := by
  unfold pr Cert.Spec.proj
  refine Finset.sum_congr rfl fun cc _ => ?_
  rw [wq2block1_apply]
  congr 1
  exact xblock1_apply V c t _ _ (by show n.val = 512 * t.val + (0 + 1 * r.val); omega)
    (by show 512 + cc.val = 512 + 1 * cc.val; omega)

/-- The block function of point t's input blocks at place y is G1 of the whole arrays at row 512 t + y 0, column y 1:
    the same half is chosen on both sides, and in it the query entries and the matrix entries agree one by one. -/
theorem blockResult1_eq (t : Fin cfg1.N) (y : S512x1024.Idx) (k : S4096x1024.Idx)
    (hk0 : (k 0).val = 512 * t.val + (y 0).val) (hk1 : (k 1).val = (y 1).val) :
    blockResult1 (iblk1 V c 0 t) (iblk1 V c 1 t) (iblk1 V c 2 t) (iblk1 V c 3 t) (iblk1 V c 4 t) y
      = G1 (V c main_arg0) (V c main_arg1) (V c main_arg2) (V c main_v0_0) (V c main_v0_1) k := by
  unfold blockResult1 G1 Cert.Spec.cat
  by_cases h : (y 1).val < 512
  · have h' : (k 1).val < 512 := by rw [hk1]; exact h
    rw [dif_pos h, dif_pos h']
    refine Finset.sum_congr rfl fun d _ => ?_
    refine congrArg₂ (· * ·) (query_head1 V c t (y 0) (k 0) hk0 d _) ?_
    rw [m1block1_apply]
    exact congrArg (fun q => (V c main_v0_0 : S512x512.Idx → EReal) (ix2 d q)) (Fin.ext hk1.symm)
  · have h' : ¬ (k 1).val < 512 := by rw [hk1]; exact h
    rw [dif_neg h, dif_neg h']
    refine Finset.sum_congr rfl fun d _ => ?_
    refine congrArg₂ (· * ·) (query_head2 V c t (y 0) (k 0) hk0 d _) ?_
    rw [m2block1_apply]
    exact congrArg (fun q => (V c main_v0_1 : S512x512.Idx → EReal) (ix2 d q))
      (Fin.ext (by show (y 1).val - 512 = (k 1).val - 512; rw [hk1]))

/-! ## From the blocks to the array -/

/-- What point t writes back is block t of G1 of the arrays the call finds. -/
theorem written1_5_eq (t : Fin cfg1.N) :
    (dat1 (F := Ideal) V c).flushed 5 t = ((cfg1.win 5).blk t).view.read (Elt Ideal)
      (G1 (V c main_arg0) (V c main_arg1) (V c main_arg2) (V c main_v0_0) (V c main_v0_1)) := by
  show (cfg1.win 5).cut (grid1.coords t) ((dat1 (F := Ideal) V c).after 5 t) = _
  rw [after1_5]
  funext y
  obtain ⟨-, -, e0, e1⟩ := index_rows1 t
  show out1_5 (F := Ideal) (iblk1 V c 0 t) (iblk1 V c 1 t) (iblk1 V c 2 t) (iblk1 V c 3 t) (iblk1 V c 4 t) y
    = G1 (V c main_arg0) (V c main_arg1) (V c main_arg2) (V c main_v0_0) (V c main_v0_1) (((cfg1.win 5).blk t).view.emb y)
  rw [out1_5_apply]
  refine blockResult1_eq V c t y _ ?_ ?_
  · show win1_5.index t (0 : Fin 2) * 512 + 1 * (y 0).val = 512 * t.val + (y 0).val; rw [e0]; omega
  · show win1_5.index t (1 : Fin 2) * 1024 + 1 * (y 1).val = (y 1).val; rw [e1]; omega

/-- An index of the result array is in point t's block iff each coordinate is in the block's range on its axis. -/
theorem mem_block1_5 (t : Fin cfg1.N) (i : S4096x1024.Idx) :
    i ∈ ((cfg1.win 5).blk t).view.set ↔ ∀ a : Fin 2, win1_5.index t a * S512x1024.size a ≤ (i a).val
      ∧ (i a).val < win1_5.index t a * S512x1024.size a + S512x1024.size a := by
  show i ∈ ((View.whole main_v1).slice (win1_5.rect t)).set ↔ _
  rw [View.set_slice_whole, Rect.mem_set_unit]
  exact Iff.rfl

/-- Every index of the result array is written by some point: row i 0 lies in the block of point (i 0) / 512, which
    spans all the columns. -/
theorem rows_covered1_5 (i : S4096x1024.Idx) :
    ∃ t : Fin cfg1.N, (cfg1.win 5).flush t = true ∧ i ∈ ((cfg1.win 5).blk t).view.set := by
  have hi0 : (i 0).val < 4096 := (i 0).isLt
  have hi1 : (i 1).val < 1024 := (i 1).isLt
  obtain ⟨t, ht⟩ : ∃ t : Fin cfg1.N, t.val = (i 0).val / 512 :=
    ⟨⟨(i 0).val / 512, by show (i 0).val / 512 < 8; omega⟩, rfl⟩
  obtain ⟨-, -, e0, e1⟩ := index_rows1 t
  refine ⟨t, flush1_5 t, ?_⟩
  rw [mem_block1_5]
  intro a
  match a with
  | ⟨0, _⟩ =>
    show win1_5.index t (0 : Fin 2) * 512 ≤ (i 0).val ∧ (i 0).val < win1_5.index t (0 : Fin 2) * 512 + 512
    rw [e0, ht]; omega
  | ⟨1, _⟩ =>
    show win1_5.index t (1 : Fin 2) * 1024 ≤ (i 1).val ∧ (i 1).val < win1_5.index t (1 : Fin 2) * 1024 + 1024
    rw [e1]; omega

/-- After the second call the result array holds G1 of the arrays the call found. -/
theorem final1 (V : (c : Dev nD) → (b : Ref sig .tc) → Buf (Elt Ideal) ((c : Thread nD τ).loc b)) (c : Dev nD) :
    (dat1 (F := Ideal) V c).arrAt 5 cfg1.N
      = G1 (V c main_arg0) (V c main_arg1) (V c main_arg2) (V c main_v0_0) (V c main_v0_1) :=
  (dat1 (F := Ideal) V c).arrAt_eq_of_cover 5 _ (fun t _ => written1_5_eq V c t) rows_covered1_5

end Cert.KernelIdeal.Val

end
-- ==== Proof.KI.ValMain.lean ====
/-
  The kernel's result as the specification's kernel side: the second call finds x and the two query weights as
  launched (the first call reads x through an input window and does not touch the query weights) and, in the
  first call's two outputs, the two accumulated matrices with all eight tiles in; what it leaves in the result
  array is then, head by head, the query projection against the accumulated matrix.
-/
import proofs.«133017_j15470472200192_1_alg».proof.Proof.KI.Main
import proofs.«133017_j15470472200192_1_alg».proof.Proof.KI.Val0
import proofs.«133017_j15470472200192_1_alg».proof.Proof.KI.Val1

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)
open scoped BigOperators

variable (m : (ℓ : Loc nD τ sig) → Buf (Elt Ideal) ℓ)

/-- Before the second call x is as launched. -/
theorem entry1_x (c : Dev nD) : Vr1 m c main_arg0 = (m ((c : Thread nD τ).loc main_arg0)) :=
  (W1_arr m c 0).trans ((((dat0 (Vr0 m) c).arrAt_in 0 rfl _).trans (A_eq0 (Vr0 m) c 0)).trans rfl)
/-- Before the second call the two query weights are as launched. -/
theorem entry1_q1 (c : Dev nD) : Vr1 m c main_arg1 = (m ((c : Thread nD τ).loc main_arg1)) :=
  (W1_of_ne m c main_arg1 (by decide)).trans rfl
theorem entry1_q2 (c : Dev nD) : Vr1 m c main_arg2 = (m ((c : Thread nD τ).loc main_arg2)) :=
  (W1_of_ne m c main_arg2 (by decide)).trans rfl
/-- Before the second call the first call's outputs hold the two accumulated matrices. -/
theorem entry1_M1 (c : Dev nD) (d e : Fin 512) : Vr1 m c main_v0_0 (ix2 d e)
    = Cert.Spec.accM (m ((c : Thread nD τ).loc main_arg0)) 0 (by norm_num) (m ((c : Thread nD τ).loc main_arg3)) (m ((c : Thread nD τ).loc main_arg5)) 7 d e :=
  (congrFun (W1_arr m c 5) (ix2 d e)).trans (final0_5 (Vr0 m) c d e)
theorem entry1_M2 (c : Dev nD) (d e : Fin 512) : Vr1 m c main_v0_1 (ix2 d e)
    = Cert.Spec.accM (m ((c : Thread nD τ).loc main_arg0)) 512 (by norm_num) (m ((c : Thread nD τ).loc main_arg4)) (m ((c : Thread nD τ).loc main_arg6)) 7 d e :=
  (congrFun (W1_arr m c 6) (ix2 d e)).trans (final0_6 (Vr0 m) c d e)

/-- After the run the result array holds the specification's kernel side of the launch contents. -/
theorem result_eq (c : Dev nD) :
    (dat1 (F := Ideal) (Vr1 m) c).arrAt 5 cfg1.N
      = Cert.Spec.GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [final1, entry1_x, entry1_q1, entry1_q2]
  unfold G1 Cert.Spec.GK Cert.Spec.headK
  congr 1
  · funext n e
    exact Finset.sum_congr rfl fun d _ => by rw [entry1_M1]
  · funext n e
    exact Finset.sum_congr rfl fun d _ => by rw [entry1_M2]

end Cert.KernelIdeal.Val

end
-- ==== Proof.RefRead.lean ====
/-
  The reference's value read at an index: each of its host operations (transpose, the two row slices, the six
  projections, the two score products, the two products with the values, the column concatenation) as a stage,
  and the composed term at an output index (n, e) as nested finite sums over the extended reals: the
  specification's reference side.
-/
import proofs.«133017_j15470472200192_1_alg».proof.Proof.Gen.ReferenceIdeal.Read
import proofs.«133017_j15470472200192_1_alg».proof.Proof.Spec
import Idealize.ShloMosaic.Lib.ValueIdx
import Idealize.ShloMosaic.Lib.Pipeline.Value
import Idealize.ShloMosaic.PureOps.Ideal.Laws

noncomputable section

namespace Cert.ReferenceIdeal.RefRead

open Idealize.ShloMosaic Idealize.ShloMosaic.ValueIdx Cert.ReferenceIdeal Cert.ReferenceIdeal.Gen

/-! ## The two heads side by side, read at an index given by its coordinates -/

/-- Left of the seam the two heads side by side read the first head. -/
theorem cat_left (h1 h2 : Fin 4096 → Fin 512 → EReal) (n : Fin 4096) (e : Fin 1024) (h : e.val < 512) :
    Cert.Spec.cat h1 h2 (ix2 n e) = h1 n ⟨e.val, h⟩ := by
  unfold Cert.Spec.cat
  exact dif_pos h

/-- From the seam on they read the second head, 512 columns to the left. -/
theorem cat_right (h1 h2 : Fin 4096 → Fin 512 → EReal) (n : Fin 4096) (e : Fin 1024) (h : ¬ e.val < 512) :
    Cert.Spec.cat h1 h2 (ix2 n e) = h2 n ⟨e.val - 512, by have := e.isLt; omega⟩ := by
  unfold Cert.Spec.cat
  exact dif_neg h

/-! ## Head 1: the columns of x from 0 on -/

/-- Row c of the first half of the transpose, at position n: entry (n, 0 + c) of x. -/
theorem v1_at (x0 : FVec Ideal S4096x1024 .f32) (c : Fin 512) (n : Fin 4096) :
    Read.val_main_v1 (F := Ideal) x0 (ix2 c n) = x0 (ix2 n (Cert.Spec.col 0 (by norm_num) c)) := by
  rw [Read.val_main_v1_apply, Read.val_main_v0_apply]
  refine congrArg x0 (funext fun a => Fin.ext ?_)
  match a with
  | ⟨0, _⟩ => rfl
  | ⟨1, _⟩ => exact (Nat.zero_add c.val).symm

/-- The query projection of head 1, transposed: entry (d, n) is the sum over c of W[d, c] * x[n, 0 + c]. -/
theorem v3_at (x0 : FVec Ideal S4096x1024 .f32) (W : FVec Ideal S512x512 .f32) (d : Fin 512) (n : Fin 4096) :
    Read.val_main_v3 (F := Ideal) x0 W (ix2 d n) = Cert.Spec.projT x0 0 (by norm_num) W d n := by
  rw [Read.val_main_v3_apply]
  unfold Cert.Spec.projT
  refine Finset.sum_congr rfl fun c _ => ?_
  have e1 : Read.lidx_main_v3 (ix2 d n) c = ix2 d c :=
    funext fun a => Fin.ext (by match a with | ⟨0, _⟩ => rfl | ⟨1, _⟩ => rfl)
  have e2 : Read.ridx_main_v3 (ix2 d n) c = ix2 c n :=
    funext fun a => Fin.ext (by match a with | ⟨0, _⟩ => rfl | ⟨1, _⟩ => rfl)
  rw [e1, e2, v1_at]

/-- The key projection of head 1, transposed: the same sum with the key weights. -/
theorem v4_at (x0 : FVec Ideal S4096x1024 .f32) (W : FVec Ideal S512x512 .f32) (d : Fin 512) (n : Fin 4096) :
    Read.val_main_v4 (F := Ideal) x0 W (ix2 d n) = Cert.Spec.projT x0 0 (by norm_num) W d n := by
  rw [Read.val_main_v4_apply]
  unfold Cert.Spec.projT
  refine Finset.sum_congr rfl fun c _ => ?_
  have e1 : Read.lidx_main_v4 (ix2 d n) c = ix2 d c :=
    funext fun a => Fin.ext (by match a with | ⟨0, _⟩ => rfl | ⟨1, _⟩ => rfl)
  have e2 : Read.ridx_main_v4 (ix2 d n) c = ix2 c n :=
    funext fun a => Fin.ext (by match a with | ⟨0, _⟩ => rfl | ⟨1, _⟩ => rfl)
  rw [e1, e2, v1_at]

/-- The value projection of head 1, transposed: the same sum with the value weights. -/
theorem v5_at (x0 : FVec Ideal S4096x1024 .f32) (W : FVec Ideal S512x512 .f32) (d : Fin 512) (n : Fin 4096) :
    Read.val_main_v5 (F := Ideal) x0 W (ix2 d n) = Cert.Spec.projT x0 0 (by norm_num) W d n := by
  rw [Read.val_main_v5_apply]
  unfold Cert.Spec.projT
  refine Finset.sum_congr rfl fun c _ => ?_
  have e1 : Read.lidx_main_v5 (ix2 d n) c = ix2 d c :=
    funext fun a => Fin.ext (by match a with | ⟨0, _⟩ => rfl | ⟨1, _⟩ => rfl)
  have e2 : Read.ridx_main_v5 (ix2 d n) c = ix2 c n :=
    funext fun a => Fin.ext (by match a with | ⟨0, _⟩ => rfl | ⟨1, _⟩ => rfl)
  rw [e1, e2, v1_at]

/-- The scores of head 1: entry (n, m) is the sum over d of Q[n, d] * K[m, d], both read from the transposed
    projections. -/
theorem v6_at (x0 : FVec Ideal S4096x1024 .f32) (Wq Wk : FVec Ideal S512x512 .f32) (n m : Fin 4096) :
    Read.val_main_v6 (F := Ideal) x0 Wq Wk (ix2 n m)
      = ∑ d : Fin 512, Cert.Spec.projT x0 0 (by norm_num) Wq d n * Cert.Spec.projT x0 0 (by norm_num) Wk d m := by
  rw [Read.val_main_v6_apply]
  refine Finset.sum_congr rfl fun d _ => ?_
  have e1 : Read.lidx_main_v6 (ix2 n m) d = ix2 d n :=
    funext fun a => Fin.ext (by match a with | ⟨0, _⟩ => rfl | ⟨1, _⟩ => rfl)
  have e2 : Read.ridx_main_v6 (ix2 n m) d = ix2 d m :=
    funext fun a => Fin.ext (by match a with | ⟨0, _⟩ => rfl | ⟨1, _⟩ => rfl)
  rw [e1, e2, v3_at, v4_at]

/-- The result of head 1: entry (n, e) is the sum over m of the score (n, m) times V[m, e]. -/
theorem v7_at (x0 : FVec Ideal S4096x1024 .f32) (Wq Wk Wv : FVec Ideal S512x512 .f32) (n : Fin 4096) (e : Fin 512) :
    Read.val_main_v7 (F := Ideal) x0 Wq Wk Wv (ix2 n e) = Cert.Spec.headR x0 0 (by norm_num) Wq Wk Wv n e := by
  rw [Read.val_main_v7_apply]
  unfold Cert.Spec.headR
  refine Finset.sum_congr rfl fun m _ => ?_
  have e1 : Read.lidx_main_v7 (ix2 n e) m = ix2 n m :=
    funext fun a => Fin.ext (by match a with | ⟨0, _⟩ => rfl | ⟨1, _⟩ => rfl)
  have e2 : Read.ridx_main_v7 (ix2 n e) m = ix2 e m :=
    funext fun a => Fin.ext (by match a with | ⟨0, _⟩ => rfl | ⟨1, _⟩ => rfl)
  rw [e1, e2, v6_at, v5_at]

/-! ## Head 2: the columns of x from 512 on -/

/-- Row c of the second half of the transpose, at position n: entry (n, 512 + c) of x. -/
theorem v2_at (x0 : FVec Ideal S4096x1024 .f32) (c : Fin 512) (n : Fin 4096) :
    Read.val_main_v2 (F := Ideal) x0 (ix2 c n) = x0 (ix2 n (Cert.Spec.col 512 (by norm_num) c)) := by
  rw [Read.val_main_v2_apply, Read.val_main_v0_apply]
  refine congrArg x0 (funext fun a => Fin.ext ?_)
  match a with
  | ⟨0, _⟩ => rfl
  | ⟨1, _⟩ => rfl

/-- The query projection of head 2, transposed: entry (d, n) is the sum over c of W[d, c] * x[n, 512 + c]. -/
theorem v8_at (x0 : FVec Ideal S4096x1024 .f32) (W : FVec Ideal S512x512 .f32) (d : Fin 512) (n : Fin 4096) :
    Read.val_main_v8 (F := Ideal) x0 W (ix2 d n) = Cert.Spec.projT x0 512 (by norm_num) W d n := by
  rw [Read.val_main_v8_apply]
  unfold Cert.Spec.projT
  refine Finset.sum_congr rfl fun c _ => ?_
  have e1 : Read.lidx_main_v8 (ix2 d n) c = ix2 d c :=
    funext fun a => Fin.ext (by match a with | ⟨0, _⟩ => rfl | ⟨1, _⟩ => rfl)
  have e2 : Read.ridx_main_v8 (ix2 d n) c = ix2 c n :=
    funext fun a => Fin.ext (by match a with | ⟨0, _⟩ => rfl | ⟨1, _⟩ => rfl)
  rw [e1, e2, v2_at]

/-- The key projection of head 2, transposed: the same sum with the key weights. -/
theorem v9_at (x0 : FVec Ideal S4096x1024 .f32) (W : FVec Ideal S512x512 .f32) (d : Fin 512) (n : Fin 4096) :
    Read.val_main_v9 (F := Ideal) x0 W (ix2 d n) = Cert.Spec.projT x0 512 (by norm_num) W d n := by
  rw [Read.val_main_v9_apply]
  unfold Cert.Spec.projT
  refine Finset.sum_congr rfl fun c _ => ?_
  have e1 : Read.lidx_main_v9 (ix2 d n) c = ix2 d c :=
    funext fun a => Fin.ext (by match a with | ⟨0, _⟩ => rfl | ⟨1, _⟩ => rfl)
  have e2 : Read.ridx_main_v9 (ix2 d n) c = ix2 c n :=
    funext fun a => Fin.ext (by match a with | ⟨0, _⟩ => rfl | ⟨1, _⟩ => rfl)
  rw [e1, e2, v2_at]

/-- The value projection of head 2, transposed: the same sum with the value weights. -/
theorem v10_at (x0 : FVec Ideal S4096x1024 .f32) (W : FVec Ideal S512x512 .f32) (d : Fin 512) (n : Fin 4096) :
    Read.val_main_v10 (F := Ideal) x0 W (ix2 d n) = Cert.Spec.projT x0 512 (by norm_num) W d n := by
  rw [Read.val_main_v10_apply]
  unfold Cert.Spec.projT
  refine Finset.sum_congr rfl fun c _ => ?_
  have e1 : Read.lidx_main_v10 (ix2 d n) c = ix2 d c :=
    funext fun a => Fin.ext (by match a with | ⟨0, _⟩ => rfl | ⟨1, _⟩ => rfl)
  have e2 : Read.ridx_main_v10 (ix2 d n) c = ix2 c n :=
    funext fun a => Fin.ext (by match a with | ⟨0, _⟩ => rfl | ⟨1, _⟩ => rfl)
  rw [e1, e2, v2_at]

/-- The scores of head 2: entry (n, m) is the sum over d of Q[n, d] * K[m, d], both read from the transposed
    projections. -/
theorem v11_at (x0 : FVec Ideal S4096x1024 .f32) (Wq Wk : FVec Ideal S512x512 .f32) (n m : Fin 4096) :
    Read.val_main_v11 (F := Ideal) x0 Wq Wk (ix2 n m)
      = ∑ d : Fin 512, Cert.Spec.projT x0 512 (by norm_num) Wq d n * Cert.Spec.projT x0 512 (by norm_num) Wk d m := by
  rw [Read.val_main_v11_apply]
  refine Finset.sum_congr rfl fun d _ => ?_
  have e1 : Read.lidx_main_v11 (ix2 n m) d = ix2 d n :=
    funext fun a => Fin.ext (by match a with | ⟨0, _⟩ => rfl | ⟨1, _⟩ => rfl)
  have e2 : Read.ridx_main_v11 (ix2 n m) d = ix2 d m :=
    funext fun a => Fin.ext (by match a with | ⟨0, _⟩ => rfl | ⟨1, _⟩ => rfl)
  rw [e1, e2, v8_at, v9_at]

/-- The result of head 2: entry (n, e) is the sum over m of the score (n, m) times V[m, e]. -/
theorem v12_at (x0 : FVec Ideal S4096x1024 .f32) (Wq Wk Wv : FVec Ideal S512x512 .f32) (n : Fin 4096) (e : Fin 512) :
    Read.val_main_v12 (F := Ideal) x0 Wq Wk Wv (ix2 n e) = Cert.Spec.headR x0 512 (by norm_num) Wq Wk Wv n e := by
  rw [Read.val_main_v12_apply]
  unfold Cert.Spec.headR
  refine Finset.sum_congr rfl fun m _ => ?_
  have e1 : Read.lidx_main_v12 (ix2 n e) m = ix2 n m :=
    funext fun a => Fin.ext (by match a with | ⟨0, _⟩ => rfl | ⟨1, _⟩ => rfl)
  have e2 : Read.ridx_main_v12 (ix2 n e) m = ix2 e m :=
    funext fun a => Fin.ext (by match a with | ⟨0, _⟩ => rfl | ⟨1, _⟩ => rfl)
  rw [e1, e2, v11_at, v10_at]

/-- The reference's composed term is the specification's reference side, as a function of the seven argument
    arrays in the order of @main's parameters (x, then the query, key and value weights of head 1 and head 2
    interleaved as Wq1, Wq2, Wk1, Wk2, Wv1, Wv2). -/
theorem ref_eq (x0 : FVec Ideal S4096x1024 .f32) (x1 x2 x3 x4 x5 x6 : FVec Ideal S512x512 .f32) :
    Cert.ReferenceIdeal.Read.val_main_v13 (F := Ideal) x0 x1 x2 x3 x4 x5 x6 = Cert.Spec.GR x0 x1 x2 x3 x4 x5 x6 := by
  funext i
  obtain ⟨n, e, rfl⟩ : ∃ (n : Fin 4096) (e : Fin 1024), i = ix2 n e := ⟨i 0, i 1, eq_ix2 i⟩
  unfold Read.val_main_v13 Cert.Spec.GR
  by_cases h : e.val < 512
  · -- a column left of the seam comes from the first operand, at the same coordinates
    rw [cat_left _ _ n e h]
    exact (concatenate_pair_apply_left (s₁ := S4096x512) (s₂ := S4096x512) (1 : Fin S4096x1024.rank) _ _ _ (ix2 n e) rfl (ix2 n (⟨e.val, h⟩ : Fin 512))
      (fun b => match b with
        | ⟨0, _⟩ => rfl
        | ⟨1, _⟩ => rfl)).trans (v7_at x0 x1 x3 x5 n ⟨e.val, h⟩)
  · -- a column from the seam on comes from the second operand, 512 columns to the left
    have h2 : e.val - 512 < 512 := by have := e.isLt; omega
    rw [cat_right _ _ n e h]
    exact (concatenate_pair_apply_right (s₁ := S4096x512) (s₂ := S4096x512) (1 : Fin S4096x1024.rank) _ _ _ (ix2 n e) rfl rfl (ix2 n (⟨e.val - 512, h2⟩ : Fin 512))
      (fun b hb => match b with
        | ⟨0, _⟩ => rfl
        | ⟨1, _⟩ => absurd (Fin.ext rfl) hb)
      (by show (e.val - 512) + 512 = e.val; omega)).trans (v12_at x0 x2 x4 x6 n ⟨e.val - 512, h2⟩)

end Cert.ReferenceIdeal.RefRead

end
-- ==== Proof.Finite.lean ====
/-
  The precondition read back: the printed predicate is the conjunction, over the seven argument arrays, of
  "every entry has absolute value below plus infinity". At the ideal instance an entry is an extended real, and
  one whose absolute value is below plus infinity is a real number.
-/
import proofs.«133017_j15470472200192_1_alg».proof.Proof.Gen.Pre_finite_inputs
import proofs.«133017_j15470472200192_1_alg».proof.Proof.Spec
import Idealize.ShloMosaic.Lib.ReduceAll
import Idealize.ShloMosaic.Lib.ValueIdx
import Idealize.ShloMosaic.PureOps.Ideal.Laws

noncomputable section

namespace Cert.PreFinite

open Idealize.ShloMosaic Cert.Pre_finite_inputs Cert.Pre_finite_inputs.Gen

/-- The shape with no axes has exactly one index. -/
instance : Subsingleton S_.Idx := ⟨fun a b => funext fun d => d.elim0⟩

/-- An extended real whose absolute value, the larger of itself and its negation, lies strictly below plus
    infinity is a real number: minus infinity has negation plus infinity, and plus infinity is itself too large. -/
theorem real_of_abs_lt_top (x : EReal) (h : max x (-x) < ⊤) : ∃ r : ℝ, x = (r : EReal) := by
  induction x using EReal.rec with
  | bot => simp at h
  | coe r => exact ⟨r, rfl⟩
  | top => simp at h

/-- One array's conjunct, for any shape: if the conjunction over all entries of the comparison
    "absolute value below plus infinity" comes out true, every entry is a real number. -/
theorem finite_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant S_ .f32 0x7F800000#32))) init hr hu
          ValueIdx.ix0 = 1#1) :
    Cert.Spec.Finite a := by
  intro i
  have h1 := Host.reduce_andi_all _ _ hr hu _ e i
  have hc : (FloatOps.ofBits (F := Ideal) .f32 0x7F800000#32 : Ideal .f32) = (⊤ : EReal) := by
    simp [Ideal.ofBits, Ideal.ieee]
  simp only [cmpf, Host.absf, broadcastInDim, constant, Ideal.hostAbsf_def, Ideal.cmpf_def, Ideal.absf_def,
    Ideal.cmp] at h1
  rw [hc] at h1
  have h2 : max (a i) (-a i) < ⊤ := by
    by_contra hn
    simp [hn] at h1
  exact real_of_abs_lt_top (a i) h2

/-- Under the printed precondition every entry of every argument array is a real number. -/
theorem finite_of_pre (x0 : FVec Ideal S4096x1024 .f32) (x1 x2 x3 x4 x5 x6 : FVec Ideal S512x512 .f32)
    (h : Cert.Pre_finite_inputs.fn (F := Ideal) x0 x1 x2 x3 x4 x5 x6 = fun _ => 1#1) :
    Cert.Spec.Finite x0 ∧ Cert.Spec.Finite x1 ∧ Cert.Spec.Finite x2 ∧ Cert.Spec.Finite x3
      ∧ Cert.Spec.Finite x4 ∧ Cert.Spec.Finite x5 ∧ Cert.Spec.Finite x6 := by
  have h0 := congrFun h ValueIdx.ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨finite_of_all x0 _ _ _ _ e0, finite_of_all x1 _ _ _ _ e1, finite_of_all x2 _ _ _ _ e2,
    finite_of_all x3 _ _ _ _ e3, finite_of_all x4 _ _ _ _ e4, finite_of_all x5 _ _ _ _ e5,
    finite_of_all x6 _ _ _ _ e6⟩

end Cert.PreFinite

end
-- ==== Proof.lean ====
/-
  The claim: a two-call attention kernel without softmax against its plain reference.

  Per head (the two halves of x's 1024 columns), with Q, K, V the projections of the 4096 rows of x by three
  512 x 512 weights, the reference forms the 4096 x 4096 scores S = Q K^T and returns S V. The kernel's first call
  accumulates M = K^T V (512 x 512) over eight tiles of 512 rows in a scratch matrix kept between grid points,
  writing it out at the last point; its second call returns Q M, tile by tile. Over the reals Q (K^T V) = (Q K^T) V:
  distribute the products over the inner sums and exchange the two finite sums. At the ideal instance a float is an
  extended real, on which distributivity needs every entry finite: this is where the precondition is used.

  The three frames: each program terminates without a fault and leaves its arguments as launched. For the two
  kernel programs (the same text read at the word-level and at the ideal instance) the frame is proved once,
  generic in the instance: each call's body is run symbolically at a grid point (three cases for the first call:
  reset and accumulate, accumulate, accumulate and write out), the region invariant of the first call carries the
  two scratch matrices from point to point, and the two calls are composed as the segments of the main function. The
  reference's frame is its generated run with the result dropped. The idealization rewrote nothing, so there is
  nothing to preserve.
-/
import proofs.«133017_j15470472200192_1_alg».proof.Defs
import proofs.«133017_j15470472200192_1_alg».proof.Proof.K.Main
import proofs.«133017_j15470472200192_1_alg».proof.Proof.KI.ValMain
import proofs.«133017_j15470472200192_1_alg».proof.Proof.RefRead
import proofs.«133017_j15470472200192_1_alg».proof.Proof.Finite
import proofs.«133017_j15470472200192_1_alg».proof.Proof.Gen.Kernel
import proofs.«133017_j15470472200192_1_alg».proof.Proof.Gen.KernelIdeal
import proofs.«133017_j15470472200192_1_alg».proof.Proof.Gen.ReferenceIdeal
import proofs.«133017_j15470472200192_1_alg».proof.Proof.Gen.ReferenceIdeal.Run
import proofs.«133017_j15470472200192_1_alg».proof.Proof.Gen.ReferenceIdeal.Read
import proofs.«133017_j15470472200192_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance, from memories agreeing on the arguments, both programs end with the same result: the
    kernel's array is the accumulate-then-contract form, the reference's the scores-then-contract form, and on
    finite inputs the two forms are one function. -/
theorem algebraic : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Val.result_eq m c), (h c).2⟩)
      (Cert.KernelIdeal.Fr.run_value m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := Cert.PreFinite.finite_of_pre _ _ _ _ _ _ _ (hpre c)
    rw [Cert.ReferenceIdeal.Read.val_main_v13_eq, Cert.ReferenceIdeal.RefRead.ref_eq,
      (hagree c).1, (hagree c).2.1, (hagree c).2.2.1, (hagree c).2.2.2.1, (hagree c).2.2.2.2.1, (hagree c).2.2.2.2.2.1, (hagree c).2.2.2.2.2.2]
    exact (Cert.Spec.GK_eq_GR _ _ _ _ _ _ _ h0 h1 h2 h3 h4 h5 h6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
